-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : IVec S2048x2048 32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .i32⟩
  | .hbm, ⟨2, _⟩ => ⟨S2048, .f32⟩
  | .hbm, ⟨3, _⟩ => ⟨S16384x2048, .f32⟩
  | .hbm, ⟨4, _⟩ => ⟨S2048x2048, .bf16⟩
  | .hbm, ⟨5, _⟩ => ⟨S1x2048, .f32⟩
  | .hbm, ⟨6, _⟩ => ⟨S16384x2048, .f32⟩
  | .hbm, ⟨7, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S2048x1 : Shape := ⟨2, ![2048, 1]⟩

abbrev nBuf : Space → Nat
  | .hbm => 108
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .i32⟩
  | .hbm, ⟨2, _⟩ => ⟨S2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .i32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4x4096x2048, .f32⟩
  | .hbm, ⟨59, _⟩ => ⟨S4x4096x2048, .f32⟩
  | .hbm, ⟨60, _⟩ => ⟨S_, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S4x4096x2048, .f32⟩
  | .hbm, ⟨65, _⟩ => ⟨S2048x2048, .f32⟩
  | .hbm, ⟨66, _⟩ => ⟨S2048x1, .f32⟩
  | .hbm, ⟨67, _⟩ => ⟨S2048x2048, .f32⟩
  | .hbm, ⟨68, _⟩ => ⟨S2048x2048, .f32⟩
  | .hbm, ⟨69, _⟩ => ⟨S4x4096x2048, .f32⟩
  | .hbm, ⟨70, _⟩ => ⟨S_, .f32⟩
  | .hbm, ⟨71, _⟩ => ⟨S4x4096, .f32⟩
  | .hbm, ⟨72, _⟩ => ⟨S4x4096x1, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S_, .i32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S_, .f32⟩
  | .hbm, ⟨81, _⟩ => ⟨S4x4096x1, .f32⟩
  | .hbm, ⟨82, _⟩ => ⟨S4x4096x1, .f32⟩
  | .hbm, ⟨83, _⟩ => ⟨S4x4096x2048, .f32⟩
  | .hbm, ⟨84, _⟩ => ⟨S4x4096x2048, .f32⟩
  | .hbm, ⟨85, _⟩ => ⟨S4x4096x2048, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4x4096, .f32⟩
  | .hbm, ⟨91, _⟩ => ⟨S4x4096x1, .f32⟩
  | .hbm, ⟨92, _⟩ => ⟨S4x4096x1, .f32⟩
  | .hbm, ⟨93, _⟩ => ⟨S4x4096x1, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S4x4096x1, .f32⟩
  | .hbm, ⟨99, _⟩ => ⟨S4x4096x1, .f32⟩
  | .hbm, ⟨100, _⟩ => ⟨S4x4096x2048, .f32⟩
  | .hbm, ⟨101, _⟩ => ⟨S4x4096x2048, .f32⟩
  | .hbm, ⟨102, _⟩ => ⟨S_, .f32⟩
  | .hbm, ⟨103, _⟩ => ⟨S4x4096x1, .f32⟩
  | .hbm, ⟨104, _⟩ => ⟨S4x4096x1, .f32⟩
  | .hbm, ⟨105, _⟩ => ⟨S4x4096x1, .f32⟩
  | .hbm, ⟨106, _⟩ => ⟨S4x4096x2048, .f32⟩
  | .hbm, ⟨107, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_v15 : Ref sig .tc := ⟨.hbm, 48, rfl⟩
abbrev main_cst_4 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_5 : Ref sig .tc := ⟨.hbm, 55, rfl⟩
abbrev main_cst_6 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_7 : Ref sig .tc := ⟨.hbm, 70, rfl⟩
abbrev main_v29 : Ref sig .tc := ⟨.hbm, 71, rfl⟩
abbrev main_v30 : Ref sig .tc := ⟨.hbm, 72, rfl⟩
abbrev main_cst_8 : Ref sig .tc := ⟨.hbm, 73, rfl⟩
abbrev main_v31 : Ref sig .tc := ⟨.hbm, 74, rfl⟩
abbrev main_v32 : Ref sig .tc := ⟨.hbm, 75, rfl⟩
abbrev main_c_9 : Ref sig .tc := ⟨.hbm, 76, rfl⟩
abbrev main_call4_cst : Ref sig .tc := ⟨.hbm, 77, rfl⟩
abbrev main_call4_v0 : Ref sig .tc := ⟨.hbm, 78, rfl⟩
abbrev main_call4_v1 : Ref sig .tc := ⟨.hbm, 79, rfl⟩
abbrev main_call4_cst_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_v6 : Ref sig .tc := ⟨.hbm, 85, rfl⟩
abbrev main_call4_v7 : Ref sig .tc := ⟨.hbm, 86, rfl⟩
abbrev main_call4_cst_1 : Ref sig .tc := ⟨.hbm, 87, rfl⟩
abbrev main_call4_v8 : Ref sig .tc := ⟨.hbm, 88, rfl⟩
abbrev main_call4_cst_2 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_v12 : Ref sig .tc := ⟨.hbm, 93, rfl⟩
abbrev main_call4_cst_3 : Ref sig .tc := ⟨.hbm, 94, rfl⟩
abbrev main_call4_v13 : Ref sig .tc := ⟨.hbm, 95, rfl⟩
abbrev main_call4_cst_4 : Ref sig .tc := ⟨.hbm, 96, rfl⟩
abbrev main_call4_call0_v0 : Ref sig .tc := ⟨.hbm, 97, rfl⟩
abbrev main_call4_call0_v1 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_cst_10 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S_S4x4096x2048 : S_.BroadcastsInDim S4x4096x2048 (![] : Fin 0 → Fin S4x4096x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.Spec.lean ====
/-
  The row function both programs compute, on the extended reals.

  A row x of 2048 entries is normalised (mean and biased variance over the row, a small constant under the root),
  quantised to integers in [-127, 127] by its largest absolute entry, multiplied into an integer matrix w whose
  output columns carry a scale s, and the 2048 results are normalised again.

  The kernel spells the normalisation as  (y - mean) * rsqrt(sum y^2 / n - mean^2 + e)  with the mean taken as a product
  with 1/2048, quantises by a product with 127 / max(eps, absmax), leaves the row's quantisation step out of the matrix
  product, and instead normalises with  e = eps * (127 / max(eps, absmax))^2.
  The reference spells it  (y - mean) / sqrt(sum (y - mean)^2 / n + eps)  with quotients by 2048, quantises by a quotient by
  max(eps, absmax) / 127, and multiplies the quantised row back by that step before the matrix product.
-/
import Idealize.ShloMosaic.PureOps.Ideal

noncomputable section

namespace Cert.BitLin

open Idealize.ShloMosaic
open scoped BigOperators

/-- The constants, as the words both programs print. -/
def eps : EReal := Ideal.ofBits .f32 0x3727C5AC#32
def inv2048 : EReal := Ideal.ofBits .f32 0x3A000000#32
def c2048 : EReal := Ideal.ofBits .f32 0x45000000#32
def c127 : EReal := Ideal.ofBits .f32 0x42FE0000#32
def cneg127 : EReal := Ideal.ofBits .f32 0xC2FE0000#32
def negInf : EReal := Ideal.ofBits .f32 0xFF800000#32

/-- A row of 2048 extended reals. -/
abbrev Row : Type := Fin 2048 → EReal

/-! ## The kernel's spelling -/

/-- The mean as a product with the word of 1/2048. -/
def meanK (y : Row) : EReal := (∑ k, y k) * inv2048
/-- The variance as the mean of squares less the squared mean. -/
def varK (y : Row) : EReal := (∑ k, y k * y k) * inv2048 - meanK y * meanK y
/-- Centre, then multiply by the reciprocal root of the variance plus e. -/
def lnK (e : EReal) (y : Row) : Row := fun j => (y j - meanK y) * Ideal.rsqrt (varK y + e)

/-! ## The reference's spelling -/

/-- The mean as a quotient by 2048. -/
def meanR (y : Row) : EReal := Ideal.div (∑ k, y k) c2048
/-- The variance as the mean of the squared centred entries. -/
def varR (y : Row) : EReal := Ideal.div (∑ k, (y k - meanR y) * (y k - meanR y)) c2048
/-- Centre, then divide by the root of the variance plus eps. -/
def lnR (y : Row) : Row := fun j => Ideal.div (y j - meanR y) (Ideal.sqrt (varR y + eps))

/-! ## Shared pieces -/

/-- The largest absolute entry of a row, folded from minus infinity. -/
def absMax (y : Row) : EReal :=
  (Finset.univ : Finset (Fin 2048)).fold max negInf (fun k => max (y k) (-(y k)))
/-- Round to nearest, ties to even, then clamp to [-127, 127]. -/
def clipQ (v : EReal) : EReal := min c127 (max cneg127 (Ideal.liftRound Ideal.roundHalfEven v))

/-! ## The kernel's row -/

/-- 127 over the clamped largest absolute normalised entry: the reciprocal of the quantisation step. -/
def invK (x : Row) : EReal := Ideal.div c127 (max eps (absMax (lnK eps x)))
/-- The quantised row. -/
def qK (x : Row) : Row := fun j => clipQ (lnK eps x j * invK x)
/-- The integer matrix product, each output scaled by its column's scale. -/
def yK (x : Row) (w : Fin 2048 → Row) (s : Row) : Row := fun o => (∑ k, qK x k * w o k) * s o
/-- The kernel's result row. -/
def kerRow (x : Row) (w : Fin 2048 → Row) (s : Row) : Row := lnK (eps * (invK x * invK x)) (yK x w s)

/-! ## The reference's row -/

/-- The quantisation step: the clamped largest absolute normalised entry over 127. -/
def scR (x : Row) : EReal := Ideal.div (max eps (absMax (lnR x))) c127
/-- The quantised row. -/
def qR (x : Row) : Row := fun j => clipQ (Ideal.div (lnR x j) (scR x))
/-- The dequantised row times the scaled matrix. -/
def outR (x : Row) (w : Fin 2048 → Row) (s : Row) : Row := fun o => ∑ k, (qR x k * scR x) * (w o k * s o)
/-- The reference's result row. -/
def refRow (x : Row) (w : Fin 2048 → Row) (s : Row) : Row := lnR (outR x w s)

end Cert.BitLin

end
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KerPayload.lean ====
/-
  The kernel body's arithmetic, read at one entry of the block, on the extended reals.

  The body normalises each row of a 512 × 2048 block (mean as the row's sum times the word of 1/2048, variance as the
  mean of squares less the squared mean, eps under the reciprocal root), takes 127 over the larger of eps and the row's
  largest absolute normalised entry, rounds the scaled row to nearest even and clamps it to [-127, 127], multiplies the
  result into a 2048 × 2048 matrix along the matrix's axis 1, scales each output column, and normalises each row of the
  product again, now with eps times the squared reciprocal step under the root.

  Every step is elementwise or a reduction along a row, so entry (p, q) of the result depends on row p of the block
  alone: it is the row function kerRow of that row, the matrix and the scales, at q. The proof reads each stretch at an
  entry: a row reduction is a sum (or a fold of max) over the row's 2048 coordinates; a reduced column cast to [512, 1] and
  broadcast back reads its row's entry; the matrix product into a zero accumulator is the sum over the contraction
  coordinate of the operands' products; the elementwise operations are the extended reals' own. The two normalisations
  are one block function at two per-row terms under the root, proved once.
-/
import proofs.«428198_j3427383902229_3_alg».proof.Proof.Gen.KernelIdeal.Skeleton
import proofs.«428198_j3427383902229_3_alg».proof.Proof.Spec
import proofs.«428198_j3427383902229_3_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KerPayload

open Cert.KernelIdeal Cert.KernelIdeal.Gen Cert.BitLin Idealize.ShloMosaic Idealize.ShloMosaic.ValueIdx
open scoped BigOperators

/-! ## A row's sum, kept as a column -/

/-- The source index a reduction over axis 1 inserts coordinate k into, over row p, is (p, k). -/
theorem lift_row (h : S512x2048.Reduces [1] S512) (p : Fin 512) (k : Fin 2048) :
    h.lift (ix1 p) k = ix2 p k := by
  funext c
  match c with
  | ⟨0, _⟩ => exact Fin.ext rfl
  | ⟨1, _⟩ => exact Fin.ext rfl

/-- A sum over axis 1 of a 512 × 2048 block, at row p: the sum of the row's 2048 entries. -/
theorem rowSum_apply (v : FVec Ideal S512x2048 .f32) (h : S512x2048.Reduces [1] S512) (hφ : FKind.Formats .f32)
    (hacc : (0x00000000#32 : BitVec 32) = FKind.add.neutral .f32 hφ) (p : Fin 512) :
    multiReduction .add [1] S512 v 0x00000000#32 h hφ hacc (ix1 p) = ∑ k : Fin 2048, v (ix2 p k) := by
  refine (Ideal.multiReduction_add_single v 0x00000000#32 h hφ hacc (ix1 p)).trans ?_
  show ∑ k : Fin 2048, v (h.lift (ix1 p) k) = _
  exact Finset.sum_congr rfl fun k _ => congrArg v (lift_row h p k)

/-- The row's sum kept as a column: the reduction cast from [512] to [512, 1] reads, at (p, u), the row's sum. -/
theorem rowSumCol_apply (v : FVec Ideal S512x2048 .f32) (h : S512x2048.Reduces [1] S512) (hφ : FKind.Formats .f32)
    (hacc : (0x00000000#32 : BitVec 32) = FKind.add.neutral .f32 hφ) (hc : S512.ShapeCasts S512x1) (p : Fin 512) (u : Fin 1) :
    shapeCast S512x1 (multiReduction .add [1] S512 v 0x00000000#32 h hφ hacc) hc (ix2 p u) = ∑ k : Fin 2048, v (ix2 p k) :=
  (Cert.LibKeepdims.shapeCast_a_a1_apply _ hc p u).trans (rowSum_apply v h hφ hacc p)

/-! ## The normalisation both halves of the body spell -/

/-- Centre each row by its mean (the row's sum times the word of 1/2048) and multiply by the reciprocal root of the
    row's variance (the mean of squares less the squared mean) plus a per-row term e, as the body writes it over whole
    blocks: sums kept as columns, columns broadcast back along the rows. -/
def lnVec (v : FVec Ideal S512x2048 .f32) (e : FVec Ideal S512x1 .f32) : FVec Ideal S512x2048 .f32 :=
  mulf
    (subf v (broadcastTo S512x2048
      (mulf (shapeCast S512x1 (multiReduction .add [1] S512 v 0x00000000#32 reduces_S512x2048_S512 (.inl rfl) rfl) shapeCasts_S512_S512x1)
        (broadcast S512x1 (Scalar.ofBits .f32 0x3A000000#32))) broadcasts_S512x1_S512x2048))
    (broadcastTo S512x2048
      (rsqrt (addf
        (subf
          (mulf (shapeCast S512x1 (multiReduction .add [1] S512 (mulf v v) 0x00000000#32 reduces_S512x2048_S512 (.inl rfl) rfl) shapeCasts_S512_S512x1)
            (broadcast S512x1 (Scalar.ofBits .f32 0x3A000000#32)))
          (mulf
            (mulf (shapeCast S512x1 (multiReduction .add [1] S512 v 0x00000000#32 reduces_S512x2048_S512 (.inl rfl) rfl) shapeCasts_S512_S512x1)
              (broadcast S512x1 (Scalar.ofBits .f32 0x3A000000#32)))
            (mulf (shapeCast S512x1 (multiReduction .add [1] S512 v 0x00000000#32 reduces_S512x2048_S512 (.inl rfl) rfl) shapeCasts_S512_S512x1)
              (broadcast S512x1 (Scalar.ofBits .f32 0x3A000000#32)))))
        e)) broadcasts_S512x1_S512x2048)

/-- At entry (p, j) that block is the row function lnK, with e read at the row's column entry. -/
theorem lnVec_apply (v : FVec Ideal S512x2048 .f32) (e : FVec Ideal S512x1 .f32) (p : Fin 512) (j : Fin 2048) :
    lnVec v e (ix2 p j) = lnK (e (ix2 p (0 : Fin 1))) (fun k => v (ix2 p k)) j := by
  have hs := rowSumCol_apply v reduces_S512x2048_S512 (.inl rfl) rfl shapeCasts_S512_S512x1 p 0
  have hq := rowSumCol_apply (mulf v v) reduces_S512x2048_S512 (.inl rfl) rfl shapeCasts_S512_S512x1 p 0
  unfold lnVec
  rw [mulf_apply, subf_apply, Cert.LibKeepdims.broadcastTo_a1_ab_apply, Cert.LibKeepdims.broadcastTo_a1_ab_apply]
  show (v (ix2 p j) - _ * Ideal.ofBits .f32 0x3A000000#32)
      * Ideal.rsqrt (_ * Ideal.ofBits .f32 0x3A000000#32 - _ * Ideal.ofBits .f32 0x3A000000#32 * (_ * Ideal.ofBits .f32 0x3A000000#32)
          + e (ix2 p (0 : Fin 1))) = _
  rw [hs, hq]
  rfl

/-! ## The first normalisation -/

/-- The first half's normalised block is the shared normalisation of the loaded block with the constant eps on every row. -/
theorem pay2_eq (x0 : Vec Ideal S512x2048 .f32) :
    k0_pay2 (F := Ideal) x0 = lnVec x0 (broadcast S512x1 (Scalar.ofBits .f32 0x3727C5AC#32)) := by
  have h1 : shapeCast S512x2048 x0 shapeCasts_S512x2048_S512x2048 = x0 := shapeCast_self x0 _
  show lnVec (shapeCast S512x2048 x0 shapeCasts_S512x2048_S512x2048) (broadcast S512x1 (Scalar.ofBits .f32 0x3727C5AC#32)) = _
  rw [h1]

/-- At entry (p, j): the row function lnK with eps, on row p of the loaded block. -/
theorem pay2_apply (x0 : Vec Ideal S512x2048 .f32) (p : Fin 512) (j : Fin 2048) :
    k0_pay2 (F := Ideal) x0 (ix2 p j) = lnK eps (fun k => x0 (ix2 p k)) j := by
  rw [pay2_eq]
  exact lnVec_apply x0 _ p j

/-! ## A row's largest absolute entry and the reciprocal quantisation step -/

/-- A maximum over axis 1 of a 512 × 2048 block, at row p: the fold of max from minus infinity over the row's entries. -/
theorem rowMax_apply (v : FVec Ideal S512x2048 .f32) (h : S512x2048.Reduces [1] S512) (hφ : FKind.Formats .f32)
    (hacc : (0xFF800000#32 : BitVec 32) = FKind.maximumf.neutral .f32 hφ) (p : Fin 512) :
    multiReduction .maximumf [1] S512 v 0xFF800000#32 h hφ hacc (ix1 p)
      = (Finset.univ : Finset (Fin 2048)).fold max negInf (fun k => v (ix2 p k)) := by
  refine (Ideal.multiReduction_maximumf_single v 0xFF800000#32 h hφ hacc (ix1 p)).trans ?_
  have hl : v ∘ h.lift (ix1 p) = fun k : Fin 2048 => v (ix2 p k) := funext fun k => congrArg v (lift_row h p k)
  show (Finset.univ : Finset (Fin 2048)).fold max (Ideal.ofBits .f32 0xFF800000#32) (v ∘ h.lift (ix1 p)) = _
  rw [hl]
  rfl

/-- 127 over the larger of eps and a row's largest absolute entry, as the body writes it over a whole block w: at the
    column entry of row p it is that quotient for row p of w. -/
theorem invCol_apply (w : FVec Ideal S512x2048 .f32) (p : Fin 512) :
    divf (broadcast S512x1 (Scalar.ofBits .f32 0x42FE0000#32))
        (maximumf (broadcast S512x1 (Scalar.ofBits .f32 0x3727C5AC#32))
          (shapeCast S512x1 (multiReduction .maximumf [1] S512 (absf w) 0xFF800000#32 reduces_S512x2048_S512 (.inl rfl) rfl)
            shapeCasts_S512_S512x1)) (ix2 p (0 : Fin 1))
      = Ideal.div c127 (max eps (absMax (fun k => w (ix2 p k)))) := by
  have hm := rowMax_apply (absf w) reduces_S512x2048_S512 (.inl rfl) rfl p
  rw [divf_apply, maximumf_apply, Cert.LibKeepdims.shapeCast_a_a1_apply, hm]
  rfl

/-- The first half's column of reciprocal steps, at row p: invK of row p of the loaded block. -/
theorem pay3_apply (x0 : Vec Ideal S512x2048 .f32) (p : Fin 512) :
    k0_pay3 (F := Ideal) x0 (ix2 p (0 : Fin 1)) = invK (fun k => x0 (ix2 p k)) := by
  have hrow : (fun k => k0_pay2 (F := Ideal) x0 (ix2 p k)) = lnK eps (fun k => x0 (ix2 p k)) :=
    funext fun k => pay2_apply x0 p k
  refine (invCol_apply (k0_pay2 (F := Ideal) x0) p).trans ?_
  rw [hrow]
  rfl

/-! ## The matrix product, read at an entry

The body's product contracts the left operand's axis 1 with the right operand's axis 1: entry (p, o) of the result is
the sum over k of l[p, k] · r[o, k]. -/

/-- The left operand's row coordinate is the result's row coordinate. -/
theorem lhs_dot_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch from List.not_mem_nil),
    dif_pos (show (0 : Fin S512x2048.rank) ∈ dot_S512x2048_S2048x2048_S512x2048_1_1_0_0_n_n.lhsNonContracting from
      List.mem_singleton_self _)]
  rfl

/-- The left operand's column coordinate is the contraction index. -/
theorem lhs_dot_1 (i : S512x2048.Idx) (q : dot_S512x2048_S2048x2048_S512x2048_1_1_0_0_n_n.contr.Idx) :
    (dot_S512x2048_S2048x2048_S512x2048_1_1_0_0_n_n.lhsIdx i q 1).val = (q ⟨0, Nat.one_pos⟩).val :=
  dot_S512x2048_S2048x2048_S512x2048_1_1_0_0_n_n.lhsIdx_val_of_single rfl i q

/-- The right operand's row coordinate is the result's column coordinate. -/
theorem rhs_dot_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch from List.not_mem_nil),
    dif_pos (show (0 : Fin S2048x2048.rank) ∈ dot_S512x2048_S2048x2048_S512x2048_1_1_0_0_n_n.rhsNonContracting from
      List.mem_singleton_self _)]
  rfl

/-- The right operand's column coordinate is the contraction index. -/
theorem rhs_dot_1 (i : S512x2048.Idx) (q : dot_S512x2048_S2048x2048_S512x2048_1_1_0_0_n_n.contr.Idx) :
    (dot_S512x2048_S2048x2048_S512x2048_1_1_0_0_n_n.rhsIdx i q 1).val = (q ⟨0, Nat.one_pos⟩).val :=
  dot_S512x2048_S2048x2048_S512x2048_1_1_0_0_n_n.rhsIdx_val_of_single rfl i q

/-- Entry (p, o) of the product into a zero accumulator: the sum over k of l[p, k] · r[o, k]. -/
theorem matmul_dot_apply (l : FVec Ideal S512x2048 .bf16) (r : FVec Ideal S2048x2048 .bf16) (p : Fin 512) (o : Fin 2048) :
    matmul dot_S512x2048_S2048x2048_S512x2048_1_1_0_0_n_n none l r (constant (F := Ideal) S512x2048 .f32 0x00000000#32) (ix2 p o)
      = ∑ k : Fin 2048, l (ix2 p k) * r (ix2 o k) := by
  simp only [matmul]
  rw [Ideal.matmul_constant_zero_apply,
    ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p o)
      ((contrEquiv1 dot_S512x2048_S2048x2048_S512x2048_1_1_0_0_n_n 2048 rfl rfl).symm k) = ix2 p k :=
    funext fun a => Fin.ext (by
      match a with
      | ⟨0, _⟩ => exact lhs_dot_0 _ _
      | ⟨1, _⟩ => exact (lhs_dot_1 _ _).trans hk)
  have er : dot_S512x2048_S2048x2048_S512x2048_1_1_0_0_n_n.rhsIdx (ix2 p o)
      ((contrEquiv1 dot_S512x2048_S2048x2048_S512x2048_1_1_0_0_n_n 2048 rfl rfl).symm k) = ix2 o k :=
    funext fun a => Fin.ext (by
      match a with
      | ⟨0, _⟩ => exact rhs_dot_0 _ _
      | ⟨1, _⟩ => exact (rhs_dot_1 _ _).trans hk)
  rw [el, er]

/-! ## The quantised product -/

/-- Scale a block a by a column c of per-row factors, round to nearest even, clamp to [-127, 127] (and narrow, which
    changes nothing on the extended reals), multiply into the matrix x1 along its axis 1 from a zero accumulator, and scale
    each output column by the row vector x2: the second stretch of the body's first half, over whole blocks. -/
def yVec (a : FVec Ideal S512x2048 .f32) (c : FVec Ideal S512x1 .f32) (x1 : Vec Ideal S2048x2048 .bf16)
    (x2 : Vec Ideal S1x2048 .f32) : FVec Ideal S512x2048 .f32 :=
  mulf
    (matmul (φ₁ := .bf16) (φ₂ := .bf16) dot_S512x2048_S2048x2048_S512x2048_1_1_0_0_n_n none
      (truncf .bf16
        (minimumf (broadcast S512x2048 (Scalar.ofBits .f32 0x42FE0000#32))
          (maximumf (broadcast S512x2048 (Scalar.ofBits .f32 0xC2FE0000#32))
            (roundeven (mulf a (broadcastTo S512x2048 c broadcasts_S512x1_S512x2048)))))
        bitsLt_bf16_f32)
      (shapeCast S2048x2048 x1 shapeCasts_S2048x2048_S2048x2048)
      (constant S512x2048 .f32 0x00000000#32))
    (broadcastTo S512x2048 (shapeCast S1x2048 x2 shapeCasts_S1x2048_S1x2048) broadcasts_S1x2048_S512x2048)

/-- One quantised entry: the clamp of the rounded product of the block's entry with its row's factor. -/
theorem quant_apply (a : FVec Ideal S512x2048 .f32) (c : FVec Ideal S512x1 .f32) (p : Fin 512) (k : Fin 2048) :
    (truncf .bf16
        (minimumf (broadcast S512x2048 (Scalar.ofBits .f32 0x42FE0000#32))
          (maximumf (broadcast S512x2048 (Scalar.ofBits .f32 0xC2FE0000#32))
            (roundeven (mulf a (broadcastTo S512x2048 c broadcasts_S512x1_S512x2048)))))
        bitsLt_bf16_f32 : FVec Ideal S512x2048 .bf16) (ix2 p k)
      = clipQ (a (ix2 p k) * c (ix2 p (0 : Fin 1))) := by
  have hb := Cert.LibKeepdims.broadcastTo_a1_ab_apply c broadcasts_S512x1_S512x2048 p k
  show min (Ideal.ofBits .f32 0x42FE0000#32) (max (Ideal.ofBits .f32 0xC2FE0000#32)
      (Ideal.liftRound Ideal.roundHalfEven (a (ix2 p k) * broadcastTo S512x2048 c broadcasts_S512x1_S512x2048 (ix2 p k)))) = _
  rw [hb]
  rfl

/-- At entry (p, o): the sum over k of the quantised entries of row p times x1[o, k], times x2[0, o]. -/
theorem yVec_apply (a : FVec Ideal S512x2048 .f32) (c : FVec Ideal S512x1 .f32) (x1 : Vec Ideal S2048x2048 .bf16)
    (x2 : Vec Ideal S1x2048 .f32) (p : Fin 512) (o : Fin 2048) :
    yVec a c x1 x2 (ix2 p o)
      = (∑ k : Fin 2048, clipQ (a (ix2 p k) * c (ix2 p (0 : Fin 1))) * x1 (ix2 o k)) * x2 (ix2 (0 : Fin 1) o) := by
  have h1 : shapeCast S2048x2048 x1 shapeCasts_S2048x2048_S2048x2048 = x1 := shapeCast_self x1 _
  have h2 : shapeCast S1x2048 x2 shapeCasts_S1x2048_S1x2048 = x2 := shapeCast_self x2 _
  unfold yVec
  rw [h1, h2, mulf_apply, broadcastTo_1b_ab_apply, matmul_dot_apply]
  exact congrArg (· * x2 (ix2 (0 : Fin 1) o))
    (Finset.sum_congr rfl fun k _ => congrArg (· * x1 (ix2 o k)) (quant_apply a c p k))

/-- The first half's second result is that block, over its normalised block and its column of reciprocal steps. -/
theorem pay4_eq (x0 : Vec Ideal S512x2048 .f32) (x1 : Vec Ideal S2048x2048 .bf16) (x2 : Vec Ideal S1x2048 .f32) :
    k0_pay4 (F := Ideal) x0 x1 x2 = yVec (k0_pay2 (F := Ideal) x0) (k0_pay3 (F := Ideal) x0) x1 x2 := rfl

/-- At entry (p, o): the row function yK on row p of the loaded block, the matrix and the scales. -/
theorem pay4_apply (x0 : Vec Ideal S512x2048 .f32) (x1 : Vec Ideal S2048x2048 .bf16) (x2 : Vec Ideal S1x2048 .f32)
    (p : Fin 512) (o : Fin 2048) :
    k0_pay4 (F := Ideal) x0 x1 x2 (ix2 p o)
      = yK (fun k => x0 (ix2 p k)) (fun o k => x1 (ix2 o k)) (fun o => x2 (ix2 (0 : Fin 1) o)) o := by
  rw [pay4_eq, yVec_apply, pay3_apply]
  show _ = (∑ k : Fin 2048, clipQ (lnK eps (fun k => x0 (ix2 p k)) k * invK (fun k => x0 (ix2 p k))) * x1 (ix2 o k))
      * x2 (ix2 (0 : Fin 1) o)
  exact congrArg (· * x2 (ix2 (0 : Fin 1) o))
    (Finset.sum_congr rfl fun k _ => by rw [pay2_apply])

/-! ## The second normalisation, and the whole body at an entry -/

/-- The stored block is the shared normalisation of the product block, with eps times the squared reciprocal step on
    each row. -/
theorem pay1_eq (v26 : FVec Ideal S512x1 .f32) (v41 : FVec Ideal S512x2048 .f32) :
    k0_pay1 (F := Ideal) v26 v41
      = lnVec v41 (mulf (broadcast S512x1 (Scalar.ofBits .f32 0x3727C5AC#32)) (mulf v26 v26)) := rfl

/-- At entry (p, q): the row function lnK on row p of the product block, with eps times the squared factor of row p. -/
theorem pay1_apply (v26 : FVec Ideal S512x1 .f32) (v41 : FVec Ideal S512x2048 .f32) (p : Fin 512) (q : Fin 2048) :
    k0_pay1 (F := Ideal) v26 v41 (ix2 p q)
      = lnK (eps * (v26 (ix2 p (0 : Fin 1)) * v26 (ix2 p (0 : Fin 1)))) (fun k => v41 (ix2 p k)) q := by
  rw [pay1_eq, lnVec_apply]
  rfl

/-- The body's arithmetic at entry (p, q) of the block: the kernel's row function on row p of the loaded block, the
    matrix and the column scales, at q. -/
theorem pay_apply (x0 : Vec Ideal S512x2048 .f32) (x1 : Vec Ideal S2048x2048 .bf16) (x2 : Vec Ideal S1x2048 .f32)
    (p : Fin 512) (q : Fin 2048) :
    k0_pay1 (F := Ideal) (k0_pay3 x0) (k0_pay4 x0 x1 x2) (ix2 p q)
      = kerRow (fun j => x0 (ix2 p j)) (fun o k => x1 (ix2 o k)) (fun o => x2 (ix2 (0 : Fin 1) o)) q := by
  have hrow : (fun k => k0_pay4 (F := Ideal) x0 x1 x2 (ix2 p k))
      = yK (fun j => x0 (ix2 p j)) (fun o k => x1 (ix2 o k)) (fun o => x2 (ix2 (0 : Fin 1) o)) :=
    funext fun k => pay4_apply x0 x1 x2 p k
  rw [pay1_apply, pay3_apply, hrow]
  rfl

end Cert.KernelIdeal.KerPayload

end
-- ==== Proof.KerValue.lean ====
/-
  The kernel's result array as one function of its three arguments.

  The grid has 32 points; point t works on rows 512 t … 512 t + 511 of the input flattened to [16384, 2048], on the whole
  integer matrix (made float) and on the whole scale row, and writes back the same rows of the result. What it writes at
  (p, q) is the row function of row 512 t + p of the input, read at q; so every row of the region's array is the row
  function of the same row of the flattened input, the 32 blocks covering the array. The host lines around the region only
  recast: [4, 4096, 2048] to [16384, 2048] before it (row (b, t) becomes row 4096 b + t), [2048] to [1, 2048], the integers
  to floats, and [16384, 2048] back to [4, 4096, 2048] after it.
-/
import proofs.«428198_j3427383902229_3_alg».proof.Proof.Gen.KernelIdeal.Frame
import proofs.«428198_j3427383902229_3_alg».proof.Proof.Spec
import proofs.«428198_j3427383902229_3_alg».proof.Proof.KerPayload
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen Cert.KernelIdeal.KerPayload Cert.BitLin Idealize.ShloMosaic.ValueIdx

variable (m : (ℓ : Loc nD τ sig) → Buf (Elt Ideal) ℓ) (ρ : Dev nD → PrngReg)

/-- The zero offset of a whole-block access. -/
theorem hz : (![0, 0] : Fin 2 → Nat) = fun _ => 0 := funext fun a => by fin_cases a <;> rfl

/-- The printed index maps over the 32 grid points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The arrays the region finds, as plain functions. -/
abbrev X0 (c : Dev nD) : S16384x2048.Idx → EReal := V m c main_v0
abbrev W1 (c : Dev nD) : S2048x2048.Idx → EReal := V m c main_v1
abbrev S2 (c : Dev nD) : S1x2048.Idx → EReal := V m c main_v2

/-- The array the region leaves: each row the row function of the same row of the input. -/
def G3 (c : Dev nD) : S16384x2048.Idx → EReal := fun i =>
  kerRow (fun j => X0 m c (ix2 (i 0) j)) (fun o k => W1 m c (ix2 o k)) (fun o => S2 m c (ix2 (0 : Fin 1) o)) (i 1)

/-- Input window 0's block at point t is rows 512 t … 512 t + 511 of the flattened input. -/
theorem iblk0_apply (c : Dev nD) (t : Fin cfg0.N) (x : S512x2048.Idx) (k : S16384x2048.Idx)
    (hk0 : (k 0).val = 512 * t.val + (x 0).val) (hk1 : (k 1).val = (x 1).val) :
    (iblk m c 0 t : Vec Ideal S512x2048 .f32) x = X0 m c k := by
  obtain ⟨e00, e01, -⟩ := idx_facts t
  unfold iblk
  rw [View.read_apply]
  show V m c main_v0 _ = V m c main_v0 _
  congr 1
  funext a
  apply Fin.ext
  match a with
  | ⟨0, _⟩ => show win0_0.index t (0 : Fin 2) * 512 + 1 * (x 0).val = (k 0).val; omega
  | ⟨1, _⟩ => show win0_0.index t (1 : Fin 2) * 2048 + 1 * (x 1).val = (k 1).val; omega

/-- Input window 1's block at every point is the whole matrix. -/
theorem iblk1_apply (c : Dev nD) (t : Fin cfg0.N) (x : S2048x2048.Idx) :
    (iblk m c 1 t : Vec Ideal S2048x2048 .bf16) x = W1 m c x := by
  obtain ⟨-, -, e10, e11, -⟩ := idx_facts t
  unfold iblk
  rw [View.read_apply]
  show V m c main_v1 _ = V m c main_v1 _
  congr 1
  funext a
  apply Fin.ext
  match a with
  | ⟨0, _⟩ => show win0_1.index t (0 : Fin 2) * 2048 + 1 * (x 0).val = (x 0).val; omega
  | ⟨1, _⟩ => show win0_1.index t (1 : Fin 2) * 2048 + 1 * (x 1).val = (x 1).val; omega

/-- Input window 2's block at every point is the whole scale row. -/
theorem iblk2_apply (c : Dev nD) (t : Fin cfg0.N) (x : S1x2048.Idx) :
    (iblk m c 2 t : Vec Ideal S1x2048 .f32) x = S2 m c x := by
  obtain ⟨-, -, -, -, e20, e21, -⟩ := idx_facts t
  unfold iblk
  rw [View.read_apply]
  show V m c main_v2 _ = V m c main_v2 _
  congr 1
  funext a
  apply Fin.ext
  match a with
  | ⟨0, _⟩ => show win0_2.index t (0 : Fin 2) * 1 + 1 * (x 0).val = (x 0).val; omega
  | ⟨1, _⟩ => show win0_2.index t (1 : Fin 2) * 2048 + 1 * (x 1).val = (x 1).val; omega

/-- What point t writes back is block t of the array of row functions. -/
theorem flushed_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  unfold out0_3
  rw [View.canon_unit_zero hz]
  simp only [View.ld_unit_zero (S := S512x2048) hz, View.ld_unit_zero (S := S2048x2048) hz, View.ld_unit_zero (S := S1x2048) hz]
  funext y
  obtain ⟨p, q, rfl⟩ : ∃ (p : Fin 512) (q : Fin 2048), y = ix2 p q := ⟨y 0, y 1, eq_ix2 y⟩
  show k0_pay1 (F := Ideal) (k0_pay3 (iblk m c 0 t)) (k0_pay4 (iblk m c 0 t) (iblk m c 1 t) (iblk m c 2 t)) (ix2 p q) = G3 m c (((cfg0.win 3).blk t).view.emb (ix2 p q))
  rw [pay_apply]
  obtain ⟨e00, e01, e10, e11, e20, e21, e30, e31⟩ := idx_facts t
  unfold G3
  have h1 : ((((cfg0.win 3).blk t).view.emb (ix2 p q) 1 : Fin 2048)) = q :=
    Fin.ext (by show win0_3.index t (1 : Fin 2) * 2048 + 1 * q.val = q.val; omega)
  have h0 : ∀ j : Fin 2048, iblk m c 0 t (ix2 p j) = X0 m c (ix2 (((cfg0.win 3).blk t).view.emb (ix2 p q) 0) j) := fun j =>
    iblk0_apply m c t (ix2 p j) _ (by show win0_3.index t (0 : Fin 2) * 512 + 1 * p.val = 512 * t.val + p.val; omega) rfl
  rw [h1]
  simp only [h0, iblk1_apply, iblk2_apply]

/-- An index of the array is in point t's block iff each coordinate is in the block's range on its axis. -/
theorem mem_blk3 (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v3).slice (win0_3.rect t)).set ↔ _
  rw [View.set_slice_whole, Rect.mem_set_unit]
  exact Iff.rfl

/-- Row r of the array lies in the block of point r / 512. -/
theorem cover3 (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 32 := N_0
  refine ⟨⟨(i 0).val / 512, by rw [hN]; omega⟩, flush0_3 _, ?_⟩
  rw [mem_blk3]
  obtain ⟨-, -, -, -, -, -, e30, e31⟩ := idx_facts ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e30]; show (i 0).val / 512 * 512 ≤ (i 0).val ∧ (i 0).val < (i 0).val / 512 * 512 + 512; omega
  | ⟨1, _⟩ =>
    show win0_3.index _ (1 : Fin 2) * 2048 ≤ (i 1).val ∧ (i 1).val < win0_3.index _ (1 : Fin 2) * 2048 + 2048
    rw [e31]; omega

/-- The array after the region: the row function of every row. -/
theorem final3 (c : Dev nD) : (dats m 0 c).arrAt 3 cfg0.N = G3 m c :=
  (dats m 0 c).arrAt_eq_of_cover 3 (G3 m c) (fun t _ => flushed_eq m c t) cover3

/-- The flattened input the region finds is the argument recast. -/
theorem X0_eq (c : Dev nD) : X0 m c = shapeCast S16384x2048 (m ((c : Thread nD τ).loc main_arg0)) shapeCasts_S4x4096x2048_S16384x2048 := by
  show StableHlo.after hostOps0 (fun b => m (c, b)) (Proc.devRef .tc main_v0) = _
  after_results
  rfl

/-- The matrix the region finds is the integer argument made float. -/
theorem W1_eq (c : Dev nD) : W1 m c = (sitofp .bf16 (m ((c : Thread nD τ).loc main_arg1)) : FVec Ideal S2048x2048 .bf16) := by
  show StableHlo.after hostOps0 (fun b => m (c, b)) (Proc.devRef .tc main_v1) = _
  after_results

/-- The scale row the region finds is the scale argument recast. -/
theorem S2_eq (c : Dev nD) : S2 m c = shapeCast S1x2048 (m ((c : Thread nD τ).loc main_arg2)) shapeCasts_S2048_S1x2048 := by
  show StableHlo.after hostOps0 (fun b => m (c, b)) (Proc.devRef .tc main_v2) = _
  after_results
  rfl

/-- The result after the host line that follows the region: the region's array recast. -/
theorem tail_eq (c : Dev nD) :
    Pipeline.afterTail₀ cfgs (dats m) 0 (V0 m) [hostOps1] c main_v4
      = shapeCast S4x4096x2048 (G3 m c) shapeCasts_S16384x2048_S4x4096x2048 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v3) = G3 m c :=
    (Pipeline.withArrays_arr spec0 launch0.win.arr_inj c _ _ 3).trans (final3 m c)
  rw [hw]
  rfl

/-- The kernel's result as one function of the three arguments: entry (b, t, o) is the row function of row (b, t). -/
def Gk (x : FVec Ideal S4x4096x2048 .f32) (W : IVec S2048x2048 32) (ws : FVec Ideal S2048 .f32) : S4x4096x2048.Idx → EReal := fun i =>
  kerRow (fun j => x (ix3 (i 0) (i 1) j)) (fun o k => (((W (ix2 o k)).toInt : ℝ) : EReal)) (fun o => ws (ix1 o)) (i 2)

/-- Entry (b, t, o) of the recast array is entry (4096 b + t, o) of the region's array: the row function of row (b, t) of
    the argument, over the integer matrix made float and the scale vector. -/
theorem tail_apply (c : Dev nD) (b : Fin 4) (t : Fin 4096) (o : Fin 2048) :
    shapeCast S4x4096x2048 (G3 m c) shapeCasts_S16384x2048_S4x4096x2048 (ix3 b t o)
      = Gk (m ((c : Thread nD τ).loc main_arg0)) (m ((c : Thread nD τ).loc main_arg1)) (m ((c : Thread nD τ).loc main_arg2)) (ix3 b t o) := by
  have hr : b.val * 4096 + t.val < 16384 := by have := b.isLt; have := t.isLt; omega
  rw [shapeCast_apply (G3 m c) shapeCasts_S16384x2048_S4x4096x2048 (ix3 b t o) (ix2 (⟨b.val * 4096 + t.val, hr⟩ : Fin 16384) o) (by
    rw [Shape.rowMajor_val_two, Shape.rowMajor_val_three]; rfl)]
  unfold G3 Gk
  show kerRow (fun j => X0 m c (ix2 (⟨b.val * 4096 + t.val, hr⟩ : Fin 16384) j)) (fun o k => W1 m c (ix2 o k))
      (fun o => S2 m c (ix2 (0 : Fin 1) o)) o
    = kerRow (fun j => m ((c : Thread nD τ).loc main_arg0) (ix3 b t j))
      (fun o k => (((m ((c : Thread nD τ).loc main_arg1) (ix2 o k)).toInt : ℝ) : EReal)) (fun o => m ((c : Thread nD τ).loc main_arg2) (ix1 o)) o
  have hx : ∀ j : Fin 2048, X0 m c (ix2 (⟨b.val * 4096 + t.val, hr⟩ : Fin 16384) j) = m ((c : Thread nD τ).loc main_arg0) (ix3 b t j) := fun j => by
    rw [X0_eq]
    exact shapeCast_apply (s := S4x4096x2048) (t := S16384x2048) _ _ _ _ (by
      show (S4x4096x2048.rowMajor (ix3 b t j)).val = (S16384x2048.rowMajor (ix2 (⟨b.val * 4096 + t.val, hr⟩ : Fin 16384) j)).val
      rw [Shape.rowMajor_val_two, Shape.rowMajor_val_three]; rfl)
  have hw : ∀ o k : Fin 2048, W1 m c (ix2 o k) = (((m ((c : Thread nD τ).loc main_arg1) (ix2 o k)).toInt : ℝ) : EReal) := fun o k => by
    rw [W1_eq]; rfl
  have hs : ∀ o : Fin 2048, S2 m c (ix2 (0 : Fin 1) o) = m ((c : Thread nD τ).loc main_arg2) (ix1 o) := fun o => by
    rw [S2_eq]
    exact shapeCast_a_1a_apply _ _ _ _
  simp only [hx, hw, hs]

/-- The run, read: the result at the row function of every row of the input, the arguments unchanged. -/
theorem run : θ_run defs (onTc (τ := τ) (main (F := Ideal))) ⟨m, fun _ => 0, ρ⟩ fun r => ∀ c : Dev nD,
      r.2.mem ((c : Thread nD τ).loc main_v4) = Gk (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨
      ((h c).2 main_v4 (Pipeline.mem_restRefs_of main_v4 (by decide) (by decide))).trans ((tail_eq m c).trans (funext fun i => by
        obtain ⟨b, t, o, rfl⟩ : ∃ (b : Fin 4) (t : Fin 4096) (o : Fin 2048), i = ix3 b t o := ⟨i 0, i 1, i 2, eq_ix3 i⟩
        exact tail_apply m c b t o)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue
end
-- ==== Proof.RefTerm.lean ====
/-
  The reference's result as one function of its three arguments, in stages.

  Over an array v of shape [4, 4096, 2048]: the mean of each row (last axis) kept as a unit axis, the biased variance
  of each row (the mean of the squared centred entries, guarded by a test that the count 2048 - 0 is positive), and the
  normalisation (centre, divide by the root of the variance plus a small constant). Then the quantisation step of a
  normalised array (its rows' largest absolute entries, clamped below, over 127), the rounded and clamped quotient by
  that step, the product back with the step, the integer matrix times its per-row scale, the contraction of the two over
  the last axis of each, and the normalisation again.
-/
import proofs.«428198_j3427383902229_3_alg».proof.ReferenceIdeal

noncomputable section

namespace Cert.ReferenceIdeal.RefTerm

open Idealize.ShloMosaic Cert.ReferenceIdeal
open Cert.ReferenceIdeal.Facts₀ Cert.ReferenceIdeal.Facts

variable {F : FTy → Type} [FloatOps F] [Facts]

/-- A scalar word spread over the [4, 4096, 1] columns. -/
def scalar1 (b : BitVec 32) : FVec F S4x4096x1 .f32 :=
  broadcastInDim S4x4096x1 ![] bcast_S_S4x4096x1 (constant S_ .f32 b)

/-- A [4, 4096, 1] column spread along the last axis. -/
def spread (u : FVec F S4x4096x1 .f32) : FVec F S4x4096x2048 .f32 :=
  broadcastInDim S4x4096x2048 ![0, 1, 2] bcast_S4x4096x1_S4x4096x2048_0_1_2 u

/-- Each row's sum, kept as a unit axis. -/
def rowSum (v : FVec F S4x4096x2048 .f32) : FVec F S4x4096x1 .f32 :=
  broadcastInDim S4x4096x1 ![0, 1] bcast_S4x4096_S4x4096x1_0_1
    (Host.reduceAdd v (constant S_ .f32 0x00000000#32) reducesTo_S4x4096x2048_S4x4096_d2 h_S_)

/-- Each row's mean: the sum over 2048. -/
def mean (v : FVec F S4x4096x2048 .f32) : FVec F S4x4096x1 .f32 :=
  Host.divf (rowSum v) (scalar1 0x45000000#32)

/-- The count the variance divides by: 2048 less the integer 0 made a float. -/
def count : FVec F S_ .f32 :=
  subf (constant S_ .f32 0x45000000#32) (sitofp .f32 (constantI S_ 32 0#32))

/-- The centred array. -/
def centred (v : FVec F S4x4096x2048 .f32) : FVec F S4x4096x2048 .f32 := subf v (spread (mean v))

/-- Each row's biased variance, selected where the count is positive. -/
def var (v : FVec F S4x4096x2048 .f32) : FVec F S4x4096x1 .f32 :=
  select (broadcastInDim S4x4096x1 ![] bcast_S_S4x4096x1 (cmpf .ogt (count (F := F)) (constant S_ .f32 0x00000000#32)))
    (Host.divf (rowSum (mulf (centred v) (centred v))) (broadcastInDim S4x4096x1 ![] bcast_S_S4x4096x1 (count (F := F))))
    (broadcastInDim S4x4096x1 ![] bcast_S_S4x4096x1 (constant S_ .f32 0x7FC00000#32))

/-- The normalisation: centre, divide by the root of the variance plus the small constant. -/
def ln (v : FVec F S4x4096x2048 .f32) : FVec F S4x4096x2048 .f32 :=
  Host.divf (centred v) (spread (Host.sqrt (addf (var v) (scalar1 0x3727C5AC#32))))

/-- Each row's largest absolute entry, kept as a unit axis. -/
def rowAbsMax (v : FVec F S4x4096x2048 .f32) : FVec F S4x4096x1 .f32 :=
  broadcastInDim S4x4096x1 ![0, 1] bcast_S4x4096_S4x4096x1_0_1
    (Host.reduce FloatOps.maximumf (Host.absf v) (constant S_ .f32 0xFF800000#32) reducesTo_S4x4096x2048_S4x4096_d2 h_S_)

/-- The quantisation step of each row: the largest absolute entry, clamped below by the small constant, over 127. -/
def step (v : FVec F S4x4096x2048 .f32) : FVec F S4x4096x1 .f32 :=
  Host.divf (maximumf (scalar1 0x3727C5AC#32) (rowAbsMax v)) (scalar1 0x42FE0000#32)

/-- The quotient by the step, rounded to even and clamped to [-127, 127]. -/
def quant (v : FVec F S4x4096x2048 .f32) : FVec F S4x4096x2048 .f32 :=
  minimumf (broadcastInDim S4x4096x2048 ![] bcast_S_S4x4096x2048 (constant S_ .f32 0x42FE0000#32))
    (maximumf (broadcastInDim S4x4096x2048 ![] bcast_S_S4x4096x2048 (constant S_ .f32 0xC2FE0000#32))
      (Host.roundeven (Host.divf v (spread (step v)))))

/-- The quantised array times its step. -/
def deq (v : FVec F S4x4096x2048 .f32) : FVec F S4x4096x2048 .f32 := mulf (quant v) (spread (step v))

/-- The integer matrix made float, each row times its scale. -/
def wmat (W : IVec S2048x2048 32) (ws : FVec F S2048 .f32) : FVec F S2048x2048 .f32 :=
  mulf (sitofp .f32 W)
    (broadcastInDim S2048x2048 ![0, 1] bcast_S2048x1_S2048x2048_0_1 (broadcastInDim S2048x1 ![0] bcast_S2048_S2048x1_0 ws))

/-- The contraction of the dequantised normalised input with the scaled matrix over the last axis of each. -/
def lin (x : FVec F S4x4096x2048 .f32) (W : IVec S2048x2048 32) (ws : FVec F S2048 .f32) : FVec F S4x4096x2048 .f32 :=
  Host.dotGeneral dot_S4x4096x2048_S2048x2048_S4x4096x2048_2_1_01_0_n_n none (deq (ln x)) (wmat W ws)

/-- The reference's result. -/
def out (x : FVec F S4x4096x2048 .f32) (W : IVec S2048x2048 32) (ws : FVec F S2048 .f32) : FVec F S4x4096x2048 .f32 :=
  ln (lin x W ws)

end Cert.ReferenceIdeal.RefTerm

end
-- ==== Proof.RefRun.lean ====
/-
  The reference program's run, read back as one term.

  The program is a straight line of array operations once each call is replaced by the body it names: the mean and the
  biased variance of each row (the variance through a function that ends in a guarded selection), the normalisation,
  the quantisation step (a lower clamp through a function), the rounding (a function of one operation), the clamp to
  [-127, 127] (a function of six), the product back, the scaled integer matrix, the contraction, and the normalisation
  again (its variance through a second copy of the first function). In order that line is 105 operations, each writing
  one array of its own. It is read in five stretches — the argument normalised (38 operations), each row's largest
  absolute entry (3), quantised and scaled back (21), contracted with the scaled matrix (5), the contraction normalised
  (38) —, each stretch's last array a stage of RefTerm.out applied to what the stretch found in the arrays it reads;
  composed, the line leaves its last array at RefTerm.out of the three argument arrays, and the arguments as they were.
-/
import proofs.«428198_j3427383902229_3_alg».proof.Proof.Gen.ReferenceIdeal
import proofs.«428198_j3427383902229_3_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-! ## The line, in five stretches -/

/-- The argument normalised, 38 operations: seven of the program's own (the row mean); the variance function's twenty over
    the first call's arrays (it recomputes the mean, centres, squares, sums, and divides by the count 2048 - 0), then
    its selection's three; eight of the program's own (centring, the root of the variance plus the small constant, the
    quotient). -/
abbrev opsA : List (HloOp τ sig (Elt F)) :=
  [ nullary main_cst (constant S_ .f32 0x00000000#32),
    binary main_arg0 main_cst main_v0 (fun x v => Host.reduceAdd x v reducesTo_S4x4096x2048_S4x4096_d2 h_S_),
    unary main_v0 main_v1 (broadcastInDim S4x4096x1 ![0, 1] bcast_S4x4096_S4x4096x1_0_1),
    nullary main_cst_0 (constant S_ .f32 0x45000000#32),
    unary main_cst_0 main_v2 (broadcastInDim S4x4096x1 ![] bcast_S_S4x4096x1),
    binary main_v1 main_v2 main_v3 Host.divf,
    nullary main_c (constantI S_ 32 0#32),
    TRef.nullary main_call0.cst (constant S_ .f32 0x00000000#32),
    TRef.binary (.of main_arg0) main_call0.cst main_call0.v0 (fun x v => Host.reduceAdd x v reducesTo_S4x4096x2048_S4x4096_d2 h_S_),
    TRef.unary main_call0.v0 main_call0.v1 (broadcastInDim S4x4096x1 ![0, 1] bcast_S4x4096_S4x4096x1_0_1),
    TRef.nullary main_call0.cst_0 (constant S_ .f32 0x45000000#32),
    TRef.unary main_call0.cst_0 main_call0.v2 (broadcastInDim S4x4096x1 ![] bcast_S_S4x4096x1),
    TRef.binary main_call0.v1 main_call0.v2 main_call0.v3 Host.divf,
    TRef.unary main_call0.v3 main_call0.v4 (broadcastInDim S4x4096x2048 ![0, 1, 2] bcast_S4x4096x1_S4x4096x2048_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x45000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x4096x2048_S4x4096_d2 h_S_),
    TRef.unary main_call0.v9 main_call0.v10 (broadcastInDim S4x4096x1 ![0, 1] bcast_S4x4096_S4x4096x1_0_1),
    TRef.unary main_call0.v8 main_call0.v11 (broadcastInDim S4x4096x1 ![] bcast_S_S4x4096x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x4096x1 ![] bcast_S_S4x4096x1),
    TRef.ternary main_call0.v13 main_call0.v12 main_call0.call0.v1 main_call0.call0.v2 (fun p a b => select (broadcastInDim S4x4096x1 ![] bcast_S_S4x4096x1 p) a b),
    unary main_v3 main_v5 (broadcastInDim S4x4096x2048 ![0, 1, 2] bcast_S4x4096x1_S4x4096x2048_0_1_2),
    binary main_arg0 main_v5 main_v6 subf,
    nullary main_cst_1 (constant S_ .f32 0x3727C5AC#32),
    unary main_cst_1 main_v7 (broadcastInDim S4x4096x1 ![] bcast_S_S4x4096x1),
    binary main_v4 main_v7 main_v8 addf,
    unary main_v8 main_v9 Host.sqrt,
    unary main_v9 main_v10 (broadcastInDim S4x4096x2048 ![0, 1, 2] bcast_S4x4096x1_S4x4096x2048_0_1_2),
    binary main_v6 main_v10 main_v11 Host.divf ]

/-- Each row's largest absolute entry, 3 operations of the program's own: the absolute values, the least float, the
    left fold of the maximum along each row. -/
abbrev opsB1 : List (HloOp τ sig (Elt F)) :=
  [ unary main_v11 main_v12 Host.absf,
    nullary main_cst_2 (constant S_ .f32 0xFF800000#32),
    binary main_v12 main_cst_2 main_v13 (fun (x : FVec F S4x4096x2048 .f32) (v : FVec F S_ .f32) => Host.reduce FloatOps.maximumf x v reducesTo_S4x4096x2048_S4x4096_d2 h_S_) ]

/-- Quantised and scaled back, 21 operations: the row maxima kept as a unit axis and the small constant; the lower
    clamp's three; five (the step: the clamped largest over 127; the quotient by it); the rounding's one; the two
    bounds; the clamp's six; the step spread again and the product. -/
abbrev opsB2 : List (HloOp τ sig (Elt F)) :=
  [ unary main_v13 main_v14 (broadcastInDim S4x4096x1 ![0, 1] bcast_S4x4096_S4x4096x1_0_1),
    nullary main_cst_3 (constant S_ .f32 0x3727C5AC#32),
    TRef.unary (.of main_cst_3) main_call1.v0 id,
    TRef.unary main_call1.v0 main_call1.v1 (broadcastInDim S4x4096x1 ![] bcast_S_S4x4096x1),
    TRef.binary main_call1.v1 (.of main_v14) main_call1.v2 maximumf,
    nullary main_cst_4 (constant S_ .f32 0x42FE0000#32),
    unary main_cst_4 main_v16 (broadcastInDim S4x4096x1 ![] bcast_S_S4x4096x1),
    binary main_v15 main_v16 main_v17 Host.divf,
    unary main_v17 main_v18 (broadcastInDim S4x4096x2048 ![0, 1, 2] bcast_S4x4096x1_S4x4096x2048_0_1_2),
    binary main_v11 main_v18 main_v19 Host.divf,
    TRef.unary (.of main_v19) main_call2.v0 Host.roundeven,
    nullary main_cst_5 (constant S_ .f32 0xC2FE0000#32),
    nullary main_cst_6 (constant S_ .f32 0x42FE0000#32),
    TRef.unary (.of main_cst_5) main_call3.v0 id,
    TRef.unary main_call3.v0 main_call3.v1 (broadcastInDim S4x4096x2048 ![] bcast_S_S4x4096x2048),
    TRef.binary main_call3.v1 (.of main_v20) main_call3.v2 maximumf,
    TRef.unary (.of main_cst_6) main_call3.v3 id,
    TRef.unary main_call3.v3 main_call3.v4 (broadcastInDim S4x4096x2048 ![] bcast_S_S4x4096x2048),
    TRef.binary main_call3.v4 main_call3.v2 main_call3.v5 minimumf,
    unary main_v17 main_v22 (broadcastInDim S4x4096x2048 ![0, 1, 2] bcast_S4x4096x1_S4x4096x2048_0_1_2),
    binary main_v21 main_v22 main_v23 mulf ]

/-- Contracted with the scaled matrix, 5 operations: the integer matrix made float, the scales spread over its rows, the
    product, the contraction over the last axis of each. -/
abbrev opsC : List (HloOp τ sig (Elt F)) :=
  [ unary main_arg1 main_v24 (sitofp .f32),
    unary main_arg2 main_v25 (broadcastInDim S2048x1 ![0] bcast_S2048_S2048x1_0),
    unary main_v25 main_v26 (broadcastInDim S2048x2048 ![0, 1] bcast_S2048x1_S2048x2048_0_1),
    binary main_v24 main_v26 main_v27 mulf,
    binary main_v23 main_v27 main_v28 (fun l r => Host.dotGeneral dot_S4x4096x2048_S2048x2048_S4x4096x2048_2_1_01_0_n_n none l r) ]

/-- The contraction normalised, 38 operations: the first stretch again, over the contraction in place of the argument
    and the second copy of the variance function over the last call's arrays. -/
abbrev opsD : List (HloOp τ sig (Elt F)) :=
  [ nullary main_cst_7 (constant S_ .f32 0x00000000#32),
    binary main_v28 main_cst_7 main_v29 (fun x v => Host.reduceAdd x v reducesTo_S4x4096x2048_S4x4096_d2 h_S_),
    unary main_v29 main_v30 (broadcastInDim S4x4096x1 ![0, 1] bcast_S4x4096_S4x4096x1_0_1),
    nullary main_cst_8 (constant S_ .f32 0x45000000#32),
    unary main_cst_8 main_v31 (broadcastInDim S4x4096x1 ![] bcast_S_S4x4096x1),
    binary main_v30 main_v31 main_v32 Host.divf,
    nullary main_c_9 (constantI S_ 32 0#32),
    TRef.nullary main_call4.cst (constant S_ .f32 0x00000000#32),
    TRef.binary (.of main_v28) main_call4.cst main_call4.v0 (fun x v => Host.reduceAdd x v reducesTo_S4x4096x2048_S4x4096_d2 h_S_),
    TRef.unary main_call4.v0 main_call4.v1 (broadcastInDim S4x4096x1 ![0, 1] bcast_S4x4096_S4x4096x1_0_1),
    TRef.nullary main_call4.cst_0 (constant S_ .f32 0x45000000#32),
    TRef.unary main_call4.cst_0 main_call4.v2 (broadcastInDim S4x4096x1 ![] bcast_S_S4x4096x1),
    TRef.binary main_call4.v1 main_call4.v2 main_call4.v3 Host.divf,
    TRef.unary main_call4.v3 main_call4.v4 (broadcastInDim S4x4096x2048 ![0, 1, 2] bcast_S4x4096x1_S4x4096x2048_0_1_2),
    TRef.binary (.of main_v28) main_call4.v4 main_call4.v5 subf,
    TRef.binary main_call4.v5 main_call4.v5 main_call4.v6 mulf,
    TRef.unary (.of main_c_9) main_call4.v7 (sitofp .f32),
    TRef.nullary main_call4.cst_1 (constant S_ .f32 0x45000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S4x4096x2048_S4x4096_d2 h_S_),
    TRef.unary main_call4.v9 main_call4.v10 (broadcastInDim S4x4096x1 ![0, 1] bcast_S4x4096_S4x4096x1_0_1),
    TRef.unary main_call4.v8 main_call4.v11 (broadcastInDim S4x4096x1 ![] bcast_S_S4x4096x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S4x4096x1 ![] bcast_S_S4x4096x1),
    TRef.ternary main_call4.v13 main_call4.v12 main_call4.call0.v1 main_call4.call0.v2 (fun p a b => select (broadcastInDim S4x4096x1 ![] bcast_S_S4x4096x1 p) a b),
    unary main_v32 main_v34 (broadcastInDim S4x4096x2048 ![0, 1, 2] bcast_S4x4096x1_S4x4096x2048_0_1_2),
    binary main_v28 main_v34 main_v35 subf,
    nullary main_cst_10 (constant S_ .f32 0x3727C5AC#32),
    unary main_cst_10 main_v36 (broadcastInDim S4x4096x1 ![] bcast_S_S4x4096x1),
    binary main_v33 main_v36 main_v37 addf,
    unary main_v37 main_v38 Host.sqrt,
    unary main_v38 main_v39 (broadcastInDim S4x4096x2048 ![0, 1, 2] bcast_S4x4096x1_S4x4096x2048_0_1_2),
    binary main_v35 main_v39 main_v40 Host.divf ]

/-- The whole line: the stretches in order. -/
abbrev ops : List (HloOp τ sig (Elt F)) := opsA ++ (opsB1 ++ (opsB2 ++ (opsC ++ opsD)))

/-! ## The program is the line -/

-- one hundred and five binds re-associated, once per statement
set_option maxRecDepth 4096 in
set_option maxHeartbeats 4000000 in
/-- The program is that line: each function's definition opened at its call and each call's record at its fields, both
    sides are one chain of single steps once sequencing is re-associated. -/
theorem main_eq (c : Dev nD) : main (F := F) c = seq ops := by
  simp only [main, fn_var.body, fn_var_1.body, fn_where.body, fn_clip.body, fn_clip_0.body, fn_round.body, seq, bind_assoc, pure_bind]
  rfl

/-! ## What each stretch leaves

Each equation is a computation: the fold over a stretch unrolled, every operation's result decides whether the array
read is the one it writes, and the typed references' transports are the identity at these literal arrays. The float sums
are not opened (the equations never look inside them); the one left fold of a maximum is kept under its array's name
across the stretch that uses it. -/

/-- What a line leaves is what its second part leaves of what its first part left. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

attribute [local irreducible] Host.reduce Host.reduceAdd in
set_option maxRecDepth 8192 in
set_option maxHeartbeats 1000000 in
/-- The first stretch leaves the argument normalised: the program's own mean under the centring, the function's own under
    the variance, both the mean of RefTerm. -/
theorem stageA (V : Valuation τ sig (Elt F)) :
    after opsA V (main_v11 : DevRef τ sig) = RefTerm.ln (V (main_arg0 : DevRef τ sig)) := by
  simp only [after_cons, after_nil]
  rfl

set_option maxRecDepth 8192 in
theorem stageA_arg1 (V : Valuation τ sig (Elt F)) :
    after opsA V (main_arg1 : DevRef τ sig) = V (main_arg1 : DevRef τ sig) := by
  simp only [after_cons, after_nil]
  rfl

set_option maxRecDepth 8192 in
theorem stageA_arg2 (V : Valuation τ sig (Elt F)) :
    after opsA V (main_arg2 : DevRef τ sig) = V (main_arg2 : DevRef τ sig) := by
  simp only [after_cons, after_nil]
  rfl

attribute [local irreducible] Host.reduce Host.reduceAdd in
/-- The three operations leave each row's largest absolute entry of the array they found. -/
theorem stageB1 (W : Valuation τ sig (Elt F)) :
    after opsB1 W (main_v13 : DevRef τ sig)
      = Host.reduce FloatOps.maximumf (Host.absf (W (main_v11 : DevRef τ sig) : FVec F S4x4096x2048 .f32))
          (constant S_ .f32 0xFF800000#32) reducesTo_S4x4096x2048_S4x4096_d2 h_S_ := by
  simp only [after_cons, after_nil]
  rfl

theorem stageB1_v11 (W : Valuation τ sig (Elt F)) :
    after opsB1 W (main_v11 : DevRef τ sig) = W (main_v11 : DevRef τ sig) := by
  simp only [after_cons, after_nil]
  rfl

theorem stageB1_arg1 (W : Valuation τ sig (Elt F)) :
    after opsB1 W (main_arg1 : DevRef τ sig) = W (main_arg1 : DevRef τ sig) := by
  simp only [after_cons, after_nil]
  rfl

theorem stageB1_arg2 (W : Valuation τ sig (Elt F)) :
    after opsB1 W (main_arg2 : DevRef τ sig) = W (main_arg2 : DevRef τ sig) := by
  simp only [after_cons, after_nil]
  rfl

set_option maxRecDepth 8192 in
set_option maxHeartbeats 1000000 in
/-- The next stretch leaves the quantised array times its step, of the normalised array it found, where the array of row
    maxima it found is that array's. The fold is put back under its array's name before the two sides are compared, so
    the comparison never meets it. -/
theorem stageB2 (W : Valuation τ sig (Elt F))
    (h : W (main_v13 : DevRef τ sig)
      = Host.reduce FloatOps.maximumf (Host.absf (W (main_v11 : DevRef τ sig) : FVec F S4x4096x2048 .f32))
          (constant S_ .f32 0xFF800000#32) reducesTo_S4x4096x2048_S4x4096_d2 h_S_) :
    after opsB2 W (main_v23 : DevRef τ sig) = RefTerm.deq (W (main_v11 : DevRef τ sig)) := by
  simp only [after_cons, after_nil]
  unfold RefTerm.deq RefTerm.quant RefTerm.step RefTerm.rowAbsMax
  rw [← h]
  rfl

set_option maxRecDepth 8192 in
theorem stageB2_arg1 (W : Valuation τ sig (Elt F)) :
    after opsB2 W (main_arg1 : DevRef τ sig) = W (main_arg1 : DevRef τ sig) := by
  simp only [after_cons, after_nil]
  rfl

set_option maxRecDepth 8192 in
theorem stageB2_arg2 (W : Valuation τ sig (Elt F)) :
    after opsB2 W (main_arg2 : DevRef τ sig) = W (main_arg2 : DevRef τ sig) := by
  simp only [after_cons, after_nil]
  rfl

/-- The third stretch leaves the contraction of what it found with the scaled matrix. -/
theorem stageC (W : Valuation τ sig (Elt F)) :
    after opsC W (main_v28 : DevRef τ sig)
      = Host.dotGeneral dot_S4x4096x2048_S2048x2048_S4x4096x2048_2_1_01_0_n_n none (W (main_v23 : DevRef τ sig))
          (RefTerm.wmat (W (main_arg1 : DevRef τ sig)) (W (main_arg2 : DevRef τ sig))) := by
  simp only [after_cons, after_nil]
  rfl

attribute [local irreducible] Host.reduce Host.reduceAdd in
set_option maxRecDepth 8192 in
set_option maxHeartbeats 1000000 in
/-- The last stretch leaves the contraction it found normalised. -/
theorem stageD (W : Valuation τ sig (Elt F)) :
    after opsD W (main_v40 : DevRef τ sig) = RefTerm.ln (W (main_v28 : DevRef τ sig)) := by
  simp only [after_cons, after_nil]
  rfl

/-! ## What the line leaves -/

/-- The last array after the line is RefTerm.out of the arguments: the stretches composed, the row maxima the middle
    stretch reads being the ones the stretch before it left. -/
theorem out_eq (V : Valuation τ sig (Elt F)) :
    after ops V (main_v40 : DevRef τ sig)
      = RefTerm.out (V (main_arg0 : DevRef τ sig)) (V (main_arg1 : DevRef τ sig)) (V (main_arg2 : DevRef τ sig)) := by
  rw [after_concat, after_concat, after_concat, after_concat, stageD, stageC,
    stageB2 _ (by rw [stageB1, stageB1_v11]), stageB2_arg1, stageB2_arg2, stageB1_v11, stageB1_arg1, stageB1_arg2,
    stageA, stageA_arg1, stageA_arg2]
  rfl

set_option maxRecDepth 16384 in
set_option maxHeartbeats 1000000 in
theorem arg0_eq (V : Valuation τ sig (Elt F)) :
    after ops V (main_arg0 : DevRef τ sig) = V (main_arg0 : DevRef τ sig) := by
  simp only [after_concat, after_cons, after_nil]
  rfl

set_option maxRecDepth 16384 in
set_option maxHeartbeats 1000000 in
theorem arg1_eq (V : Valuation τ sig (Elt F)) :
    after ops V (main_arg1 : DevRef τ sig) = V (main_arg1 : DevRef τ sig) := by
  simp only [after_concat, after_cons, after_nil]
  rfl

set_option maxRecDepth 16384 in
set_option maxHeartbeats 1000000 in
theorem arg2_eq (V : Valuation τ sig (Elt F)) :
    after ops V (main_arg2 : DevRef τ sig) = V (main_arg2 : DevRef τ sig) := by
  simp only [after_concat, after_cons, after_nil]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub ..⟩

theorem opsB1_sub : (opsB1 : List (HloOp τ sig (Elt F))).Forall fun op => op.bufs ⊆ tcRefs τ sig :=
  ⟨unary_bufs_sub .., nullary_bufs_sub .., binary_bufs_sub ..⟩

theorem opsB2_sub : (opsB2 : List (HloOp τ sig (Elt F))).Forall fun op => op.bufs ⊆ tcRefs τ sig :=
  ⟨unary_bufs_sub .., nullary_bufs_sub .., unary_bufs_sub .., unary_bufs_sub .., binary_bufs_sub .., nullary_bufs_sub ..,
    unary_bufs_sub .., binary_bufs_sub .., unary_bufs_sub .., binary_bufs_sub .., unary_bufs_sub .., nullary_bufs_sub ..,
    nullary_bufs_sub .., unary_bufs_sub .., unary_bufs_sub .., binary_bufs_sub .., unary_bufs_sub .., unary_bufs_sub ..,
    binary_bufs_sub .., unary_bufs_sub .., binary_bufs_sub ..⟩

theorem opsC_sub : (opsC : List (HloOp τ sig (Elt F))).Forall fun op => op.bufs ⊆ tcRefs τ sig :=
  ⟨unary_bufs_sub .., unary_bufs_sub .., unary_bufs_sub .., binary_bufs_sub .., binary_bufs_sub ..⟩

theorem opsD_sub : (opsD : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub ..⟩

/-- Every operation of the line touches arrays of the one device memory only. -/
theorem ops_sub : (ops : List (HloOp τ sig (Elt F))).Forall fun op => op.bufs ⊆ tcRefs τ sig :=
  List.forall_append.2 ⟨opsA_sub, List.forall_append.2 ⟨opsB1_sub, List.forall_append.2 ⟨opsB2_sub,
    List.forall_append.2 ⟨opsC_sub, opsD_sub⟩⟩⟩⟩

/-- At the compiled mesh, for any float values, from any memory with zero counters: every weakly fair execution of the
    program terminates, and every final state has the last array at RefTerm.out of the three arguments' launch contents
    and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v40) = RefTerm.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v40).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's result read at one entry, at the ideal values.

  Each stage of the reference is read at explicit coordinates (b, t, j) of the [4, 4096, 2048] array, (b, t, 0) of a
  kept unit axis, (o, k) of the matrix. A row's sum is the finite sum over the last coordinate; the mean and the
  biased variance are quotients of such sums by 2048 (the count 2048 - 0 is positive, so the guarded quotient is
  selected); the normalisation, the row's largest absolute entry (a fold of max from minus infinity), the
  quantisation step, the rounded and clamped quotient and the product back with the step follow entry by entry. The
  contraction with the scaled integer matrix is the finite sum over the shared last coordinate, re-indexed from the
  contraction shape's one axis. Read together, entry (b, t, o) of the result is the row function of the
  specification applied to row (b, t) of the input.
-/
import proofs.«428198_j3427383902229_3_alg».proof.Proof.RefTerm
import proofs.«428198_j3427383902229_3_alg».proof.Proof.Gen.ReferenceIdeal
import proofs.«428198_j3427383902229_3_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.RefTerm Cert.BitLin Idealize.ShloMosaic Idealize.ShloMosaic.ValueIdx
open scoped BigOperators

/-! ## Layout: constants and kept unit axes read at coordinates -/

/-- A spread scalar word reads, at every column entry, the extended real the word encodes. -/
theorem scalar1_apply (w : BitVec 32) (i : S4x4096x1.Idx) : scalar1 (F := Ideal) w i = Ideal.ofBits .f32 w := rfl

/-- A column spread along the last axis reads, at (b, t, j), the column at (b, t, 0). -/
theorem spread_apply (u : FVec Ideal S4x4096x1 .f32) (b : Fin 4) (t : Fin 4096) (j : Fin 2048) :
    spread u (ix3 b t j) = u (ix3 b t (0 : Fin 1)) := by
  unfold spread
  refine broadcastInDim_apply _ _ u (ix3 b t j) (ix3 b t (0 : Fin 1)) fun a => ?_
  match a with
  | ⟨0, _⟩ => rfl
  | ⟨1, _⟩ => rfl
  | ⟨2, _⟩ => rfl

/-- The last axis dropped from [4, 4096, 2048] leaves [4, 4096]. -/
theorem reduces_d2 : S4x4096x2048.Reduces [2] S4x4096 := by decide

/-- The index over (b, t) with the coordinate k inserted on the dropped axis is (b, t, k). -/
theorem lift_eq (b : Fin 4) (t : Fin 4096) (k : Fin 2048) : reduces_d2.lift (ix2 b t) k = ix3 b t k := by
  funext a
  refine Fin.ext ?_
  match a with
  | ⟨0, _⟩ => rfl
  | ⟨1, _⟩ => rfl
  | ⟨2, _⟩ => rfl

/-- A row's sum kept as a unit axis: the finite sum over the last coordinate. -/
theorem rowSum_apply (v : FVec Ideal S4x4096x2048 .f32) (b : Fin 4) (t : Fin 4096) (u : Fin 1) :
    rowSum v (ix3 b t u) = ∑ k : Fin 2048, v (ix3 b t k) := by
  unfold rowSum
  refine (broadcastInDim_apply _ _ _ (ix3 b t u) (ix2 b t) fun a => ?_).trans ?_
  · match a with
    | ⟨0, _⟩ => rfl
    | ⟨1, _⟩ => rfl
  · show Ideal.hostReduceAdd _ v (Ideal.ofBits .f32 0x00000000#32) (ix2 b t) = _
    rw [Ideal.hostReduceAdd_single _ reduces_d2, Ideal.ofBits_zero_f32, zero_add]
    exact Finset.sum_congr rfl fun k _ => congrArg v (lift_eq b t k)

/-! ## The mean -/

/-- A row's mean kept as a unit axis is the specification's mean of that row. -/
theorem mean_apply (v : FVec Ideal S4x4096x2048 .f32) (b : Fin 4) (t : Fin 4096) (u : Fin 1) :
    mean v (ix3 b t u) = meanR (fun k => v (ix3 b t k)) := by
  show Ideal.div (rowSum v (ix3 b t u)) (Ideal.ofBits .f32 0x45000000#32) = _
  rw [rowSum_apply]
  rfl

/-! ## The count -/

/-- The word of 2048 is the real 2048. -/
theorem c2048_real : c2048 = ((2048 : ℝ) : EReal) := by
  unfold c2048
  simp [Ideal.ofBits, Ideal.ieee, -EReal.coe_mul]; norm_num

/-- The count 2048 less the integer 0 is 2048. -/
theorem count_apply (i : S_.Idx) : count (F := Ideal) i = c2048 := by
  show c2048 - (((0#32 : BitVec 32).toInt : ℝ) : EReal) = c2048
  rw [BitVec.toInt_zero, Int.cast_zero, EReal.coe_zero, sub_zero]

/-! ## The variance and the normalisation -/

/-- The centred array at (b, t, j): the entry less its row's mean. -/
theorem centred_apply (v : FVec Ideal S4x4096x2048 .f32) (b : Fin 4) (t : Fin 4096) (j : Fin 2048) :
    centred v (ix3 b t j) = v (ix3 b t j) - meanR (fun k => v (ix3 b t k)) := by
  show v (ix3 b t j) - spread (mean v) (ix3 b t j) = _
  rw [spread_apply, mean_apply]

/-- The count is positive, so the comparison's bit is set. -/
theorem count_pos_bit : Ideal.cmp .ogt c2048 (Ideal.ofBits .f32 0x00000000#32) = 1#1 := by
  rw [Ideal.ofBits_zero_f32, c2048_real]
  have h : (0 : EReal) < ((2048 : ℝ) : EReal) := by exact_mod_cast (by norm_num : (0 : ℝ) < 2048)
  simp [Ideal.cmp, h]

/-- A row's guarded variance kept as a unit axis is the specification's biased variance of that row. -/
theorem var_apply (v : FVec Ideal S4x4096x2048 .f32) (b : Fin 4) (t : Fin 4096) (u : Fin 1) :
    var v (ix3 b t u) = varR (fun k => v (ix3 b t k)) := by
  show Scalar.select (Ideal.cmp .ogt (count (F := Ideal) _) (Ideal.ofBits .f32 0x00000000#32))
      (Ideal.div (rowSum (mulf (centred v) (centred v)) (ix3 b t u)) (count (F := Ideal) _)) (Ideal.ofBits .f32 0x7FC00000#32) = _
  simp only [count_apply]
  rw [count_pos_bit, select_one, rowSum_apply]
  unfold varR
  refine congrArg (fun s => Ideal.div s c2048) (Finset.sum_congr rfl fun k _ => ?_)
  show centred v (ix3 b t k) * centred v (ix3 b t k) = _
  rw [centred_apply]

/-- The normalised array at (b, t, j) is the specification's normalisation of row (b, t), at j. -/
theorem ln_apply (v : FVec Ideal S4x4096x2048 .f32) (b : Fin 4) (t : Fin 4096) (j : Fin 2048) :
    ln v (ix3 b t j) = lnR (fun k => v (ix3 b t k)) j := by
  show Ideal.div (centred v (ix3 b t j)) (spread (Host.sqrt (addf (var v) (scalar1 0x3727C5AC#32))) (ix3 b t j)) = _
  rw [spread_apply, centred_apply]
  show Ideal.div _ (Ideal.sqrt (var v (ix3 b t (0 : Fin 1)) + eps)) = _
  rw [var_apply]
  rfl

/-- Row (b, t) of the normalised array is the specification's normalisation of row (b, t). -/
theorem ln_row (v : FVec Ideal S4x4096x2048 .f32) (b : Fin 4) (t : Fin 4096) :
    (fun k : Fin 2048 => ln v (ix3 b t k)) = lnR (fun k => v (ix3 b t k)) :=
  funext fun k => ln_apply v b t k

/-! ## The quantisation -/

/-- A max reduce of an array over its last axis from minus infinity, at (b, t): the fold of max over the row. -/
theorem rowMax_fold (w : FVec Ideal S4x4096x2048 .f32) (h' : S4x4096x2048.ReducesTo [2] S4x4096) (hu : 0 < S_.numel)
    (b : Fin 4) (t : Fin 4096) :
    Host.reduce (FloatOps.maximumf (F := Ideal) (φ := .f32)) w (constant (F := Ideal) S_ .f32 0xFF800000#32) h' hu (ix2 b t)
      = (Finset.univ : Finset (Fin 2048)).fold max negInf (fun k => w (ix3 b t k)) := by
  have e := Host.reduce_eq_fold_single (FloatOps.maximumf (F := Ideal) (φ := .f32)) w
    (constant (F := Ideal) S_ .f32 0xFF800000#32) h' reduces_d2 hu (ix2 b t)
  have hf : (w ∘ reduces_d2.lift (ix2 b t)) = fun k : Fin 2048 => w (ix3 b t k) :=
    funext fun k => congrArg w (lift_eq b t k)
  rw [hf] at e
  exact e

/-- A row's largest absolute entry kept as a unit axis: the fold of max from minus infinity over the row. -/
theorem rowAbsMax_apply (v : FVec Ideal S4x4096x2048 .f32) (b : Fin 4) (t : Fin 4096) (u : Fin 1) :
    rowAbsMax v (ix3 b t u) = absMax (fun k => v (ix3 b t k)) := by
  unfold rowAbsMax
  refine (broadcastInDim_apply _ _ _ (ix3 b t u) (ix2 b t) fun a => ?_).trans ?_
  · match a with
    | ⟨0, _⟩ => rfl
    | ⟨1, _⟩ => rfl
  · rw [rowMax_fold]
    rfl

/-- The step of a column r of largest absolute entries, at one entry: the clamped entry over 127. -/
theorem step_of (r : FVec Ideal S4x4096x1 .f32) (i : S4x4096x1.Idx) :
    Host.divf (maximumf (scalar1 (F := Ideal) 0x3727C5AC#32) r) (scalar1 (F := Ideal) 0x42FE0000#32) i
      = Ideal.div (max eps (r i)) c127 := rfl

/-- The quantisation step of row (b, t): the clamped largest absolute entry over 127. -/
theorem step_apply (v : FVec Ideal S4x4096x2048 .f32) (b : Fin 4) (t : Fin 4096) (u : Fin 1) :
    step v (ix3 b t u) = Ideal.div (max eps (absMax (fun k => v (ix3 b t k)))) c127 := by
  unfold step
  rw [step_of, rowAbsMax_apply]

/-- The rounded and clamped quotient of an array v by an array s, at one entry. -/
theorem quant_of (h : S_.BroadcastsInDim S4x4096x2048 (![] : Fin 0 → Fin S4x4096x2048.rank))
    (v s : FVec Ideal S4x4096x2048 .f32) (i : S4x4096x2048.Idx) :
    minimumf (broadcastInDim S4x4096x2048 ![] h (constant (F := Ideal) S_ .f32 0x42FE0000#32))
        (maximumf (broadcastInDim S4x4096x2048 ![] h (constant (F := Ideal) S_ .f32 0xC2FE0000#32))
          (Host.roundeven (Host.divf v s))) i
      = clipQ (Ideal.div (v i) (s i)) := rfl

/-- The quantised array at (b, t, j): the quotient by the row's step, rounded and clamped. -/
theorem quant_apply (v : FVec Ideal S4x4096x2048 .f32) (b : Fin 4) (t : Fin 4096) (j : Fin 2048) :
    quant v (ix3 b t j) = clipQ (Ideal.div (v (ix3 b t j)) (step v (ix3 b t (0 : Fin 1)))) := by
  unfold quant
  rw [quant_of, spread_apply]

/-- The dequantised array at (b, t, j): the quantised entry times the row's step. -/
theorem deq_apply (v : FVec Ideal S4x4096x2048 .f32) (b : Fin 4) (t : Fin 4096) (j : Fin 2048) :
    deq v (ix3 b t j) = quant v (ix3 b t j) * step v (ix3 b t (0 : Fin 1)) := by
  unfold deq
  rw [mulf_apply, spread_apply]

/-! ## The scaled matrix -/

/-- The scaled matrix at (o, k): the integer entry, as a real, times row o's scale. -/
theorem wmat_apply (W : IVec S2048x2048 32) (ws : FVec Ideal S2048 .f32) (o k : Fin 2048) :
    wmat W ws (ix2 o k) = (((W (ix2 o k)).toInt : ℝ) : EReal) * ws (ix1 o) := by
  unfold wmat
  rw [mulf_apply]
  refine congrArg ((((W (ix2 o k)).toInt : ℝ) : EReal) * ·) ?_
  refine (broadcastInDim_apply _ _ _ (ix2 o k) (ix2 o (0 : Fin 1)) fun a => ?_).trans ?_
  · match a with
    | ⟨0, _⟩ => rfl
    | ⟨1, _⟩ => rfl
  · refine broadcastInDim_apply _ _ ws (ix2 o (0 : Fin 1)) (ix1 o) fun a => ?_
    match a with
    | ⟨0, _⟩ => rfl

/-! ## The contraction

The dimension record contracts the left operand's axis 2 with the right operand's axis 1; the left operand's axes
0 and 1 are the result's axes 0 and 1, and the right operand's axis 0 is the result's axis 2. -/

/-- The left operand's first coordinate is the result's first coordinate. -/
theorem lhs_axis0 (i : S4x4096x2048.Idx) (q : dot_S4x4096x2048_S2048x2048_S4x4096x2048_2_1_01_0_n_n.contr.Idx) :
    (dot_S4x4096x2048_S2048x2048_S4x4096x2048_2_1_01_0_n_n.lhsIdx i q 0).val = (i 0).val := by
  unfold DotDims.lhsIdx
  rw [dif_neg (show ¬(0 : Fin S4x4096x2048.rank) ∈ dot_S4x4096x2048_S2048x2048_S4x4096x2048_2_1_01_0_n_n.lhsBatch from List.not_mem_nil),
    dif_pos (show (0 : Fin S4x4096x2048.rank) ∈ dot_S4x4096x2048_S2048x2048_S4x4096x2048_2_1_01_0_n_n.lhsNonContracting from by decide)]
  rfl

/-- The left operand's second coordinate is the result's second coordinate. -/
theorem lhs_axis1 (i : S4x4096x2048.Idx) (q : dot_S4x4096x2048_S2048x2048_S4x4096x2048_2_1_01_0_n_n.contr.Idx) :
    (dot_S4x4096x2048_S2048x2048_S4x4096x2048_2_1_01_0_n_n.lhsIdx i q 1).val = (i 1).val := by
  unfold DotDims.lhsIdx
  rw [dif_neg (show ¬(1 : Fin S4x4096x2048.rank) ∈ dot_S4x4096x2048_S2048x2048_S4x4096x2048_2_1_01_0_n_n.lhsBatch from List.not_mem_nil),
    dif_pos (show (1 : Fin S4x4096x2048.rank) ∈ dot_S4x4096x2048_S2048x2048_S4x4096x2048_2_1_01_0_n_n.lhsNonContracting from by decide)]
  rfl

/-- The left operand's last coordinate is the contraction index. -/
theorem lhs_axis2 (i : S4x4096x2048.Idx) (q : dot_S4x4096x2048_S2048x2048_S4x4096x2048_2_1_01_0_n_n.contr.Idx) :
    (dot_S4x4096x2048_S2048x2048_S4x4096x2048_2_1_01_0_n_n.lhsIdx i q 2).val = (q ⟨0, Nat.one_pos⟩).val :=
  dot_S4x4096x2048_S2048x2048_S4x4096x2048_2_1_01_0_n_n.lhsIdx_val_of_single rfl i q

/-- The right operand's first coordinate is the result's last coordinate. -/
theorem rhs_axis0 (i : S4x4096x2048.Idx) (q : dot_S4x4096x2048_S2048x2048_S4x4096x2048_2_1_01_0_n_n.contr.Idx) :
    (dot_S4x4096x2048_S2048x2048_S4x4096x2048_2_1_01_0_n_n.rhsIdx i q 0).val = (i 2).val := by
  unfold DotDims.rhsIdx
  rw [dif_neg (show ¬(0 : Fin S2048x2048.rank) ∈ dot_S4x4096x2048_S2048x2048_S4x4096x2048_2_1_01_0_n_n.rhsBatch from List.not_mem_nil),
    dif_pos (show (0 : Fin S2048x2048.rank) ∈ dot_S4x4096x2048_S2048x2048_S4x4096x2048_2_1_01_0_n_n.rhsNonContracting from by decide)]
  rfl

/-- The right operand's second coordinate is the contraction index. -/
theorem rhs_axis1 (i : S4x4096x2048.Idx) (q : dot_S4x4096x2048_S2048x2048_S4x4096x2048_2_1_01_0_n_n.contr.Idx) :
    (dot_S4x4096x2048_S2048x2048_S4x4096x2048_2_1_01_0_n_n.rhsIdx i q 1).val = (q ⟨0, Nat.one_pos⟩).val :=
  dot_S4x4096x2048_S2048x2048_S4x4096x2048_2_1_01_0_n_n.rhsIdx_val_of_single rfl i q

/-- The contraction of two arrays l and r at (b, t, o): the sum over k of l[b, t, k] · r[o, k]. -/
theorem dot_apply (l : FVec Ideal S4x4096x2048 .f32) (r : FVec Ideal S2048x2048 .f32) (b : Fin 4) (t : Fin 4096) (o : Fin 2048) :
    FloatOps.dotGeneral dot_S4x4096x2048_S2048x2048_S4x4096x2048_2_1_01_0_n_n none .single l r (ix3 b t o)
      = ∑ k : Fin 2048, l (ix3 b t k) * r (ix2 o k) := by
  rw [Ideal.dotGeneral_apply, ← Equiv.sum_comp (contrEquiv1 dot_S4x4096x2048_S2048x2048_S4x4096x2048_2_1_01_0_n_n 2048 rfl rfl).symm]
  refine Finset.sum_congr rfl fun k _ => ?_
  have hk := contrEquiv1_symm_val dot_S4x4096x2048_S2048x2048_S4x4096x2048_2_1_01_0_n_n 2048 rfl rfl k
  have el : dot_S4x4096x2048_S2048x2048_S4x4096x2048_2_1_01_0_n_n.lhsIdx (ix3 b t o) ((contrEquiv1 dot_S4x4096x2048_S2048x2048_S4x4096x2048_2_1_01_0_n_n 2048 rfl rfl).symm k) = ix3 b t k :=
    funext fun a => Fin.ext (by
      match a with
      | ⟨0, _⟩ => exact lhs_axis0 _ _
      | ⟨1, _⟩ => exact lhs_axis1 _ _
      | ⟨2, _⟩ => exact (lhs_axis2 _ _).trans hk)
  have er : dot_S4x4096x2048_S2048x2048_S4x4096x2048_2_1_01_0_n_n.rhsIdx (ix3 b t o) ((contrEquiv1 dot_S4x4096x2048_S2048x2048_S4x4096x2048_2_1_01_0_n_n 2048 rfl rfl).symm k) = ix2 o k :=
    funext fun a => Fin.ext (by
      match a with
      | ⟨0, _⟩ => exact rhs_axis0 _ _
      | ⟨1, _⟩ => exact (rhs_axis1 _ _).trans hk)
  rw [el, er]

/-- The contraction of the dequantised normalised input with the scaled matrix, at (b, t, o). -/
theorem lin_apply (x : FVec Ideal S4x4096x2048 .f32) (W : IVec S2048x2048 32) (ws : FVec Ideal S2048 .f32)
    (b : Fin 4) (t : Fin 4096) (o : Fin 2048) :
    lin x W ws (ix3 b t o) = ∑ k : Fin 2048, deq (ln x) (ix3 b t k) * wmat W ws (ix2 o k) := by
  unfold lin
  exact dot_apply (deq (ln x)) (wmat W ws) b t o

/-! ## The result -/

/-- Entry (b, t, o) of the reference's result is the specification's row function of row (b, t) of the input, the
    integer matrix read as reals and the scales, at o. -/
theorem out_apply (x : FVec Ideal S4x4096x2048 .f32) (W : IVec S2048x2048 32) (ws : FVec Ideal S2048 .f32) (b : Fin 4) (t : Fin 4096) (o : Fin 2048) :
    RefTerm.out (F := Ideal) x W ws (ix3 b t o)
      = refRow (fun j => x (ix3 b t j)) (fun o k => (((W (ix2 o k)).toInt : ℝ) : EReal)) (fun o => ws (ix1 o)) o := by
  unfold RefTerm.out refRow
  rw [ln_apply]
  refine congrArg (fun y => lnR y o) (funext fun o' => ?_)
  rw [lin_apply]
  unfold outR qR scR
  refine Finset.sum_congr rfl fun k _ => ?_
  rw [deq_apply, quant_apply, step_apply, ln_apply, wmat_apply, ln_row]

end Cert.ReferenceIdeal.RefValue

end
-- ==== Proof.Consts.lean ====
/-
  The values of the constant words of the row function.

  Each constant of the specification is an IEEE single-precision pattern read as an extended real.  This module
  evaluates the patterns once: 1/2048, 2048, 127, -127 are exact dyadic values, the all-ones exponent with the sign bit
  is minus infinity, and the small constant under the roots is the positive dyadic rational 10995116 / 2^40
  (about 1.0e-5).  The algebra of the row function cites these values and never opens a pattern itself.
-/
import proofs.«428198_j3427383902229_3_alg».proof.Proof.Spec

noncomputable section

namespace Cert.BitLin

open Idealize.ShloMosaic

/-- The word 0x3A000000 has exponent field 116, so it is 2^(116 - 127) = 1/2048. -/
theorem inv2048_eq : inv2048 = ((1 / 2048 : ℝ) : EReal) := by
  unfold inv2048
  simp [Ideal.ofBits, Ideal.ieee, -EReal.coe_mul]; norm_num

/-- The word 0x45000000 has exponent field 138, so it is 2^11 = 2048. -/
theorem c2048_eq : c2048 = ((2048 : ℝ) : EReal) := by
  unfold c2048
  simp [Ideal.ofBits, Ideal.ieee, -EReal.coe_mul]; norm_num

/-- The word 0x42FE0000 is (2^23 + 0x7E0000) * 2^(133 - 127 - 23) = 127. -/
theorem c127_eq : c127 = ((127 : ℝ) : EReal) := by
  unfold c127
  simp [Ideal.ofBits, Ideal.ieee, -EReal.coe_mul]; norm_num

/-- The same word with the sign bit set is -127. -/
theorem cneg127_eq : cneg127 = ((-127 : ℝ) : EReal) := by
  unfold cneg127
  simp [Ideal.ofBits, Ideal.ieee, -EReal.coe_mul]; norm_num

/-- The all-ones exponent with a zero fraction and the sign bit set is minus infinity. -/
theorem negInf_eq : negInf = ⊥ := by
  unfold negInf
  simp [Ideal.ofBits, Ideal.ieee]

/-- The word 0x3727C5AC is (2^23 + 0x27C5AC) * 2^(110 - 127 - 23) = 10995116 / 2^40. -/
theorem eps_eq : eps = ((10995116 / 1099511627776 : ℝ) : EReal) := by
  unfold eps
  simp [Ideal.ofBits, Ideal.ieee, -EReal.coe_mul]; norm_num

/-- The small constant is a positive real. -/
theorem eps_pos : ∃ e : ℝ, 0 < e ∧ eps = (e : EReal) :=
  ⟨10995116 / 1099511627776, by norm_num, eps_eq⟩

end Cert.BitLin

end
-- ==== Proof.AlgebraLN.lean ====
/-
  Layer normalisation on a row of reals: both spellings are the coercion of one real formula.

  For a real row Y put  mu Y = (sum Y) / 2048,  var Y = (sum (Y - mu)^2) / 2048  and
  ln e Y j = (Y j - mu Y) / sqrt (var Y + e).  The kernel's mean (a product with 1/2048) and the reference's (a
  quotient by 2048) are both mu; the kernel's variance  (sum Y^2)/2048 - mu^2  equals var because
  sum (Y - mu)^2 = sum Y^2 - 2 mu sum Y + 2048 mu^2  and  sum Y = 2048 mu;  var is non-negative, so for e > 0 the
  radicand var + e is positive and the reciprocal root and the quotient by the root are the same real.
  Scaling: mu (c Y) = c mu Y and var (c Y) = c^2 var Y, so for c > 0
  sqrt (c^2 var + e) = c sqrt (var + e / c^2)  and  ln e (c Y) = ln (e / c^2) Y.
-/
import proofs.«428198_j3427383902229_3_alg».proof.Proof.Spec
import proofs.«428198_j3427383902229_3_alg».proof.Proof.Consts

noncomputable section

namespace Cert.BitLin

open Idealize.ShloMosaic
open scoped BigOperators

/-- A row of 2048 reals. -/
abbrev RRow : Type := Fin 2048 → ℝ

/-- A real row read as a row of extended reals. -/
def up (Y : RRow) : Row := fun k => (Y k : EReal)

@[simp] theorem up_apply (Y : RRow) (k : Fin 2048) : up Y k = (Y k : EReal) := rfl

/-- A finite sum of coerced reals is the coercion of the real sum. -/
theorem coe_sum (s : Finset (Fin 2048)) (f : Fin 2048 → ℝ) :
    ∑ k ∈ s, (f k : EReal) = ((∑ k ∈ s, f k : ℝ) : EReal) := by
  induction s using Finset.induction_on with
  | empty => simp
  | insert a s ha ih => rw [Finset.sum_insert ha, Finset.sum_insert ha, ih, EReal.coe_add]

/-- The small constant as a real. -/
def epsR : ℝ := 10995116 / 1099511627776

theorem eps_coe : eps = (epsR : EReal) := eps_eq

theorem epsR_pos : 0 < epsR := by unfold epsR; norm_num

/-- The mean of a real row. -/
def mu (Y : RRow) : ℝ := (∑ k, Y k) / 2048
/-- The biased variance of a real row. -/
def var (Y : RRow) : ℝ := (∑ k, (Y k - mu Y) * (Y k - mu Y)) / 2048
/-- The normalised real row with the constant e under the root. -/
def ln (e : ℝ) (Y : RRow) : RRow := fun j => (Y j - mu Y) / Real.sqrt (var Y + e)

theorem var_nonneg (Y : RRow) : 0 ≤ var Y :=
  div_nonneg (Finset.sum_nonneg (fun k _ => mul_self_nonneg _)) (by norm_num)

/-- The mean of squares less the squared mean is the mean of the squared centred entries. -/
theorem var_alt (Y : RRow) : (∑ k, Y k * Y k) * (1 / 2048) - mu Y * mu Y = var Y := by
  have hs : ∑ k, Y k = 2048 * mu Y := by unfold mu; ring
  unfold var
  generalize mu Y = m at hs ⊢
  have h : ∑ k, (Y k - m) * (Y k - m) = ∑ k, Y k * Y k - 2 * m * ∑ k, Y k + 2048 * (m * m) := by
    have hk : ∀ k, (Y k - m) * (Y k - m) = Y k * Y k - 2 * m * Y k + m * m := fun k => by ring
    simp only [hk, Finset.sum_add_distrib, Finset.sum_sub_distrib, ← Finset.mul_sum, Finset.sum_const,
      Finset.card_univ, Fintype.card_fin, nsmul_eq_mul]
    ring
  rw [h, hs]; ring

theorem meanK_up (Y : RRow) : meanK (up Y) = (mu Y : EReal) := by
  unfold meanK mu
  simp only [up_apply]
  rw [coe_sum, inv2048_eq, ← EReal.coe_mul]
  congr 1; ring

theorem meanR_up (Y : RRow) : meanR (up Y) = (mu Y : EReal) := by
  unfold meanR mu
  simp only [up_apply]
  rw [coe_sum, c2048_eq, Ideal.div_coe (by norm_num), ← EReal.coe_mul]
  congr 1; ring

theorem varK_up (Y : RRow) : varK (up Y) = (var Y : EReal) := by
  unfold varK
  rw [meanK_up]
  simp only [up_apply, ← EReal.coe_mul]
  rw [coe_sum, inv2048_eq, ← EReal.coe_mul, ← EReal.coe_sub]
  congr 1
  exact var_alt Y

theorem varR_up (Y : RRow) : varR (up Y) = (var Y : EReal) := by
  unfold varR
  rw [meanR_up]
  simp only [up_apply, ← EReal.coe_sub, ← EReal.coe_mul]
  rw [coe_sum, c2048_eq, Ideal.div_coe (by norm_num), ← EReal.coe_mul]
  congr 1; unfold var; ring

/-- The kernel's normalisation of a real row, with a positive real constant, is the real formula. -/
theorem lnK_up (e : ℝ) (he : 0 < e) (Y : RRow) : lnK (e : EReal) (up Y) = up (ln e Y) := by
  funext j
  have hpos : 0 < var Y + e := add_pos_of_nonneg_of_pos (var_nonneg Y) he
  unfold lnK
  rw [meanK_up, varK_up, ← EReal.coe_add, Ideal.rsqrt_coe, if_neg (not_lt.mpr hpos.le), if_neg hpos.ne']
  simp only [up_apply, ← EReal.coe_sub, ← EReal.coe_mul]
  congr 1

/-- The reference's normalisation of a real row is the real formula with the small constant. -/
theorem lnR_up (Y : RRow) : lnR (up Y) = up (ln epsR Y) := by
  funext j
  have hpos : 0 < var Y + epsR := add_pos_of_nonneg_of_pos (var_nonneg Y) epsR_pos
  have hsq : Real.sqrt (var Y + epsR) ≠ 0 := (Real.sqrt_pos.mpr hpos).ne'
  unfold lnR
  rw [meanR_up, varR_up, eps_coe, ← EReal.coe_add, Ideal.sqrt_coe, if_neg (not_lt.mpr hpos.le),
    Ideal.div_coe hsq]
  simp only [up_apply, ← EReal.coe_sub, ← EReal.coe_mul]
  congr 1
  simp only [ln, one_div, div_eq_mul_inv, one_mul]

/-- The mean of a scaled row. -/
theorem mu_smul (c : ℝ) (Y : RRow) : mu (fun k => c * Y k) = c * mu Y := by
  unfold mu; rw [← Finset.mul_sum]; ring

/-- The variance of a scaled row. -/
theorem var_smul (c : ℝ) (Y : RRow) : var (fun k => c * Y k) = c * c * var Y := by
  unfold var
  rw [mu_smul]
  have hk : ∀ k, (c * Y k - c * mu Y) * (c * Y k - c * mu Y) = c * c * ((Y k - mu Y) * (Y k - mu Y)) :=
    fun k => by ring
  simp only [hk]
  rw [← Finset.mul_sum]; ring

/-- Normalising a row scaled by c > 0 with the constant e is normalising the row with e / c^2. -/
theorem ln_smul (c e : ℝ) (hc : 0 < c) (Y : RRow) :
    ln e (fun k => c * Y k) = ln (e / (c * c)) Y := by
  funext j
  unfold ln
  rw [mu_smul, var_smul]
  have hrad : c * c * var Y + e = c * c * (var Y + e / (c * c)) := by
    field_simp
  rw [hrad, Real.sqrt_mul (mul_self_nonneg c), Real.sqrt_mul_self hc.le, ← mul_sub,
    mul_div_mul_left _ _ hc.ne']

end Cert.BitLin

end
-- ==== Proof.Algebra.lean ====
/-
  The kernel's row and the reference's row agree on real inputs.

  With real entries every stage of both spellings is a real, so each stage is rewritten as the coercion of a real
  formula and the comparison is made in the reals.
  * First normalisation: both spellings give  Y = ln epsR X  (module AlgebraLN).
  * The largest absolute entry, folded with max from minus infinity over the 2048 reals |Y k|, is a real m; the
    clamped value d = max epsR m is at least epsR, hence positive.
  * Quantisation: the kernel multiplies by 127 / d, the reference divides by d / 127; these are the same real
    factor, so both quantised rows are  Q j = clip (round (Y j * (127 / d))).
  * Matrix product: the kernel forms  Z o = (sum_k Q k * W o k) * S o;  the reference carries the step c = d / 127
    inside the sum,  sum_k (Q k * c) * (W o k * S o) = c * Z o.
  * Second normalisation: the reference normalises c * Z with epsR, the kernel normalises Z with
    epsR * (127 / d)^2 = epsR / c^2;  for c > 0 these agree (ln_smul).
-/
import proofs.«428198_j3427383902229_3_alg».proof.Proof.Spec
import proofs.«428198_j3427383902229_3_alg».proof.Proof.Consts
import proofs.«428198_j3427383902229_3_alg».proof.Proof.AlgebraLN

noncomputable section

namespace Cert.BitLin

open Idealize.ShloMosaic
open scoped BigOperators

/-- The coercion of the reals into the extended reals is monotone, so it commutes with max. -/
theorem coe_max (a b : ℝ) : ((max a b : ℝ) : EReal) = max (a : EReal) (b : EReal) :=
  EReal.coe_strictMono.monotone.map_max

/-- And with min. -/
theorem coe_min (a b : ℝ) : ((min a b : ℝ) : EReal) = min (a : EReal) (b : EReal) :=
  EReal.coe_strictMono.monotone.map_min

/-- Folding max from minus infinity over a nonempty family of reals gives a real: the first entry absorbs the
    bottom element and each further step is a max of two reals. -/
theorem fold_max_real (s : Finset (Fin 2048)) (hs : s.Nonempty) (g : Fin 2048 → ℝ) :
    ∃ m : ℝ, s.fold max (⊥ : EReal) (fun k => (g k : EReal)) = (m : EReal) := by
  induction s using Finset.induction_on with
  | empty => exact absurd hs Finset.not_nonempty_empty
  | insert a s ha ih =>
    rw [Finset.fold_insert ha]
    rcases s.eq_empty_or_nonempty with h | h
    · subst h
      exact ⟨g a, by rw [Finset.fold_empty, max_eq_left bot_le]⟩
    · obtain ⟨m, hm⟩ := ih h
      exact ⟨max (g a) m, by rw [hm, coe_max]⟩

/-- The largest absolute entry of a real row is a real. -/
theorem absMax_up (Y : RRow) : ∃ m : ℝ, absMax (up Y) = (m : EReal) := by
  unfold absMax
  rw [negInf_eq]
  have h : (fun k => max (up Y k) (-(up Y k))) = fun k => ((max (Y k) (-(Y k)) : ℝ) : EReal) := by
    funext k; rw [up_apply, coe_max, EReal.coe_neg]
  rw [h]
  exact fold_max_real _ ⟨0, Finset.mem_univ _⟩ _

/-- Rounding to the nearest integer, ties to even, then clamping to [-127, 127], on a real. -/
def clipR (v : ℝ) : ℝ := min 127 (max (-127) ((Ideal.roundHalfEven v : ℤ) : ℝ))

theorem clipQ_coe (v : ℝ) : clipQ (v : EReal) = (clipR v : EReal) := by
  unfold clipQ clipR
  rw [Ideal.liftRound_coe, c127_eq, cneg127_eq, ← coe_max, ← coe_min]

/-- The reciprocal quantisation step of the kernel, given the normalised row and its largest absolute entry. -/
theorem invK_of (x : Row) (Y : RRow) (m : ℝ) (h1 : lnK eps x = up Y) (hm : absMax (up Y) = (m : EReal)) :
    invK x = ((127 / max epsR m : ℝ) : EReal) := by
  have hd : max epsR m ≠ 0 := (lt_of_lt_of_le epsR_pos (le_max_left _ _)).ne'
  unfold invK
  rw [h1, hm, eps_coe, ← coe_max, c127_eq, Ideal.div_coe hd, ← EReal.coe_mul, mul_one_div]

/-- The quantisation step of the reference. -/
theorem scR_of (x : Row) (Y : RRow) (m : ℝ) (h1 : lnR x = up Y) (hm : absMax (up Y) = (m : EReal)) :
    scR x = ((max epsR m / 127 : ℝ) : EReal) := by
  unfold scR
  rw [h1, hm, eps_coe, ← coe_max, c127_eq, Ideal.div_coe (by norm_num), ← EReal.coe_mul, mul_one_div]

theorem kerRow_eq_refRow (x : Row) (w : Fin 2048 → Row) (s : Row)
    (hx : ∀ j, ∃ r : ℝ, x j = (r : EReal)) (hw : ∀ o k, ∃ r : ℝ, w o k = (r : EReal))
    (hs : ∀ o, ∃ r : ℝ, s o = (r : EReal)) :
    kerRow x w s = refRow x w s := by
  -- real witnesses
  choose X hX using hx
  choose W hW using hw
  choose S hS using hs
  obtain rfl : x = up X := funext hX
  -- the first normalisation
  have hK1 : lnK eps (up X) = up (ln epsR X) := by rw [eps_coe]; exact lnK_up epsR epsR_pos X
  have hR1 : lnR (up X) = up (ln epsR X) := lnR_up X
  -- the largest absolute entry and the clamped step
  obtain ⟨m, hm⟩ := absMax_up (ln epsR X)
  have hd : 0 < max epsR m := lt_of_lt_of_le epsR_pos (le_max_left _ _)
  have hinv := invK_of (up X) (ln epsR X) m hK1 hm
  have hsc := scR_of (up X) (ln epsR X) m hR1 hm
  set d : ℝ := max epsR m with hd_def
  -- the quantised rows
  have hqK : qK (up X) = up (fun j => clipR (ln epsR X j * (127 / d))) := by
    funext j
    unfold qK
    rw [hK1, hinv, up_apply, ← EReal.coe_mul, clipQ_coe, up_apply]
  have hqR : qR (up X) = up (fun j => clipR (ln epsR X j * (127 / d))) := by
    funext j
    have hc : d / 127 ≠ 0 := (div_pos hd (by norm_num)).ne'
    unfold qR
    rw [hR1, hsc, up_apply, Ideal.div_coe hc, ← EReal.coe_mul, clipQ_coe, up_apply, one_div_div]
  set Q : RRow := fun j => clipR (ln epsR X j * (127 / d)) with hQ
  -- the matrix products
  have hyK : yK (up X) w s = up (fun o => (∑ k, Q k * W o k) * S o) := by
    funext o
    unfold yK
    rw [hqK]
    simp only [up_apply, hW, hS, ← EReal.coe_mul]
    rw [coe_sum, ← EReal.coe_mul]
  have hout : outR (up X) w s = up (fun o => (d / 127) * ((∑ k, Q k * W o k) * S o)) := by
    funext o
    unfold outR
    rw [hqR, hsc]
    simp only [up_apply, hW, hS, ← EReal.coe_mul]
    rw [coe_sum, Finset.sum_mul, Finset.mul_sum]
    exact congrArg _ (Finset.sum_congr rfl (fun k _ => by ring))
  -- the second normalisation
  have he' : 0 < epsR * (127 / d * (127 / d)) :=
    mul_pos epsR_pos (mul_pos (div_pos (by norm_num) hd) (div_pos (by norm_num) hd))
  unfold kerRow refRow
  rw [hyK, hout, hinv, eps_coe, ← EReal.coe_mul, ← EReal.coe_mul, lnK_up _ he', lnR_up,
    ln_smul (d / 127) epsR (div_pos hd (by norm_num))]
  have hee : epsR * (127 / d * (127 / d)) = epsR / (d / 127 * (d / 127)) := by
    field_simp
  rw [hee]

end Cert.BitLin

end
-- ==== Proof.Finite.lean ====
/-
  From the precondition to real-valued inputs.

  The precondition says that the conjunction, over every entry x of the two float arrays, of the
  comparison |x| < +∞ is true. Over the extended reals |x| = max x (-x), and this is below +∞
  exactly when x is neither +∞ nor -∞, that is, when x is (the image of) a real number. A
  conjunction that is true has every conjunct true, so each entry of each float array is real.
-/
import proofs.«428198_j3427383902229_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

namespace Cert.BitLinFinite

open Idealize.ShloMosaic

/-- The binary32 word 0x7F800000 (sign clear, exponent all ones, fraction zero) denotes +∞. -/
theorem inf_word : Ideal.ofBits .f32 0x7F800000#32 = (⊤ : EReal) := by
  simp [Ideal.ofBits, Ideal.ieee]

/-- An extended real whose absolute value max x (-x) lies below +∞ is neither infinity: at x = +∞ the
    maximum is +∞, at x = -∞ it is -(-∞) = +∞, so only the real case is left. -/
theorem real_of_abs_lt_top (x : EReal) (h : max x (-x) < ⊤) : ∃ r : ℝ, x = (r : EReal) := by
  induction x using EReal.rec with
  | bot => simp at h
  | coe r => exact ⟨r, rfl⟩
  | top => simp at h

/-- The ordered less-than comparison yields the one-bit word 1 only when the strict inequality holds. -/
theorem lt_of_cmp_olt (x y : EReal) (h : Ideal.cmp .olt x y = 1#1) : x < y := by
  unfold Ideal.cmp at h
  by_contra hn
  simp [hn] at h

/-- A rank-zero shape has exactly one index (the empty tuple of coordinates). -/
instance : Subsingleton Cert.Pre_finite_inputs.S_.Idx := ⟨fun a b => funext fun d => d.elim0⟩

/-- Under the precondition every entry of both float inputs is a real number: the final conjunction
    splits into the two all-entries conjunctions; each of those, being 1, has the entrywise comparison
    |x| < +∞ equal to 1 at every index; and that comparison forces x to be real. -/
theorem real_of_pre (a0 : FVec Ideal Cert.Pre_finite_inputs.S4x4096x2048 .f32) (a1 : IVec Cert.Pre_finite_inputs.S2048x2048 32) (a2 : FVec Ideal Cert.Pre_finite_inputs.S2048 .f32)
    (h : Cert.Pre_finite_inputs.fn (F := Ideal) a0 a1 a2 = (fun _ => 1#1)) :
    (∀ i, ∃ r : ℝ, a0 i = (r : EReal)) ∧ (∀ i, ∃ r : ℝ, a2 i = (r : EReal)) := by
  have h0 := congrFun h ValueIdx.ix0
  dsimp only [Cert.Pre_finite_inputs.fn] at h0
  change IntOp.andi _ _ = 1#1 at h0
  obtain ⟨hA, hB⟩ := IntOp.andi_eq_one.1 h0
  refine ⟨fun i => ?_, fun i => ?_⟩
  · have e := Host.reduce_andi_all _ _ _ _ ValueIdx.ix0 hA i
    have e' : Ideal.cmp .olt (max (a0 i) (-(a0 i))) (Ideal.ofBits .f32 0x7F800000#32) = 1#1 := e
    exact real_of_abs_lt_top _ (inf_word ▸ lt_of_cmp_olt _ _ e')
  · have e := Host.reduce_andi_all _ _ _ _ ValueIdx.ix0 hB i
    have e' : Ideal.cmp .olt (max (a2 i) (-(a2 i))) (Ideal.ofBits .f32 0x7F800000#32) = 1#1 := e
    exact real_of_abs_lt_top _ (inf_word ▸ lt_of_cmp_olt _ _ e')

end Cert.BitLinFinite
-- ==== Proof.lean ====
/-
  The five claims for the bit-linear layer (normalise, quantise to eight bits per row, multiply by a ternary matrix with
  per-column scales, normalise again), kernel against reference, over the extended reals.

  Frames: the two kernel programs' frames are their generated frame certificates; the reference has no kernel, and its
  frame is its run with the result dropped. The idealisation rewrote nothing, so the preservation claim is trivial.

  Equivalence. The kernel's result at (b, t, o) is the kernel's row function of row (b, t) of the input, over the integer
  matrix made float and the scale vector (the frame run read block by block, then through the host recasts); the
  reference's is the reference's row function of the same data (its run read stage by stage). Under the precondition every
  entry of the input and of the scale vector is a real number, and an integer made float is one, so nothing infinite ever
  appears and the two row functions agree: the two spellings of the normalisation are one real function (the variance as
  mean of squares less squared mean, the reciprocal root against the quotient by the root, the product with 1/2048 against
  the quotient by 2048); the product with 127/d is the quotient by d/127; the reference's matrix product carries the row's
  quantisation step c = d/127 > 0 as a common factor; and normalising c·Y with the constant eps is normalising Y with
  eps/c², which is the kernel's eps·(127/d)².
-/
import proofs.«428198_j3427383902229_3_alg».proof.Defs
import proofs.«428198_j3427383902229_3_alg».proof.Proof.Gen.Kernel
import proofs.«428198_j3427383902229_3_alg».proof.Proof.Gen.Kernel.Skeleton
import proofs.«428198_j3427383902229_3_alg».proof.Proof.Gen.Kernel.Launch
import proofs.«428198_j3427383902229_3_alg».proof.Proof.Gen.Kernel.Points
import proofs.«428198_j3427383902229_3_alg».proof.Proof.Gen.Kernel.Frame
import proofs.«428198_j3427383902229_3_alg».proof.Proof.Gen.KernelIdeal
import proofs.«428198_j3427383902229_3_alg».proof.Proof.Gen.KernelIdeal.Skeleton
import proofs.«428198_j3427383902229_3_alg».proof.Proof.Gen.KernelIdeal.Launch
import proofs.«428198_j3427383902229_3_alg».proof.Proof.Gen.KernelIdeal.Points
import proofs.«428198_j3427383902229_3_alg».proof.Proof.Gen.KernelIdeal.Frame
import proofs.«428198_j3427383902229_3_alg».proof.Proof.Gen.ReferenceIdeal
import proofs.«428198_j3427383902229_3_alg».proof.Proof.Gen.Pre_finite_inputs
import proofs.«428198_j3427383902229_3_alg».proof.Proof.KerValue
import proofs.«428198_j3427383902229_3_alg».proof.Proof.RefRun
import proofs.«428198_j3427383902229_3_alg».proof.Proof.RefValue
import proofs.«428198_j3427383902229_3_alg».proof.Proof.Algebra
import proofs.«428198_j3427383902229_3_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end at the kernel's function of the arguments: the reference's row function is the kernel's on real
    data, and the precondition makes the data real. -/
theorem algebraic : Cert.algebraic_KernelIdeal_ReferenceIdeal := by
  intro m ρ m' ρ' hpre hagree
  refine ⟨fun c => Cert.KernelIdeal.KerValue.Gk (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  obtain ⟨hx, hs⟩ := Cert.BitLinFinite.real_of_pre _ _ _ (hpre c)
  funext i
  obtain ⟨b, t, o, rfl⟩ : ∃ (b : Fin 4) (t : Fin 4096) (o : Fin 2048), i = ix3 b t o := ⟨i 0, i 1, i 2, eq_ix3 i⟩
  rw [Cert.ReferenceIdeal.RefValue.out_apply]
  exact (congrFun (Cert.BitLin.kerRow_eq_refRow _ _ _ (fun j => hx _) (fun o k => ⟨_, rfl⟩) (fun o => hs _)) o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
